-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S65536 : Shape := ⟨1, ![65536]⟩
abbrev S4x512x1024 : Shape := ⟨3, ![4, 512, 1024]⟩
abbrev S4x1024 : Shape := ⟨2, ![4, 1024]⟩
abbrev S1024x128 : Shape := ⟨2, ![1024, 128]⟩
abbrev S128 : Shape := ⟨1, ![128]⟩
abbrev S1024x96 : Shape := ⟨2, ![1024, 96]⟩
abbrev S96 : Shape := ⟨1, ![96]⟩
abbrev S1024x64 : Shape := ⟨2, ![1024, 64]⟩
abbrev S64 : Shape := ⟨1, ![64]⟩
abbrev S1024x32 : Shape := ⟨2, ![1024, 32]⟩
abbrev S32 : Shape := ⟨1, ![32]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S4x512x1024 : S_.BroadcastsInDim S4x512x1024 (![] : Fin 0 → Fin S4x512x1024.rank)
  reducesTo_S4x512x1024_S_d0_1_2 : S4x512x1024.ReducesTo [0, 1, 2] S_
  bcast_S_S4x1024 : S_.BroadcastsInDim S4x1024 (![] : Fin 0 → Fin S4x1024.rank)
  reducesTo_S4x1024_S_d0_1 : S4x1024.ReducesTo [0, 1] S_
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_
  bcast_S_S1024x96 : S_.BroadcastsInDim S1024x96 (![] : Fin 0 → Fin S1024x96.rank)
  reducesTo_S1024x96_S_d0_1 : S1024x96.ReducesTo [0, 1] S_
  bcast_S_S96 : S_.BroadcastsInDim S96 (![] : Fin 0 → Fin S96.rank)
  reducesTo_S96_S_d0 : S96.ReducesTo [0] S_
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_
  bcast_S_S1024x32 : S_.BroadcastsInDim S1024x32 (![] : Fin 0 → Fin S1024x32.rank)
  reducesTo_S1024x32_S_d0_1 : S1024x32.ReducesTo [0, 1] S_
  bcast_S_S32 : S_.BroadcastsInDim S32 (![] : Fin 0 → Fin S32.rank)
  reducesTo_S32_S_d0 : S32.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64 .f32) (main_arg13 : FVec F S1024x32 .f32) (main_arg14 : FVec F S32 .f32) (main_v48 : IVec S_ 1) (main_v49 : FVec F S1024x64 .f32) (main_v50 : FVec F S1024x64 .f32) : IVec S_ 1 :=
  let main_v51 : IVec S1024x64 1 := cmpf .olt main_v49 main_v50
  let main_c_19 : IVec S_ 1 := constantI S_ 1 1#1
  let main_v52 : IVec S_ 1 := (fun x v => Host.reduce IntOp.andi x v reducesTo_S1024x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S1024x32 .f32 := Host.absf main_arg13
  let main_cst_22 : FVec F S_ .f32 := constant S_ .f32 0x7F800000#32
  let main_v60 : FVec F S1024x32 .f32 := broadcastInDim S1024x32 ![] bcast_S_S1024x32 main_cst_22
  let main_v61 : IVec S1024x32 1 := cmpf .olt main_v59 main_v60
  let main_c_23 : IVec S_ 1 := constantI S_ 1 1#1
  let main_v62 : IVec S_ 1 := (fun x v => Host.reduce IntOp.andi x v reducesTo_S1024x32_S_d0_1 h_S_) main_v61 main_c_23
  let main_v63 : IVec S_ 1 := andi main_v58 main_v62
  let main_v64 : FVec F S32 .f32 := Host.absf main_arg14
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_v63 main_v67

def fn_part2 {F : FTy → Type} [FloatOps F] (main_arg8 : FVec F S128 .f32) (main_arg9 : FVec F S1024x96 .f32) (main_arg10 : FVec F S96 .f32) (main_arg11 : FVec F S1024x64 .f32) (main_arg12 : FVec F S64 .f32) (main_arg13 : FVec F S1024x32 .f32) (main_arg14 : FVec F S32 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S1024x96 .f32 := Host.absf main_arg9
  let main_cst_14 : FVec F S_ .f32 := constant S_ .f32 0x7F800000#32
  let main_v40 : FVec F S1024x96 .f32 := broadcastInDim S1024x96 ![] bcast_S_S1024x96 main_cst_14
  let main_v41 : IVec S1024x96 1 := cmpf .olt main_v39 main_v40
  let main_c_15 : IVec S_ 1 := constantI S_ 1 1#1
  let main_v42 : IVec S_ 1 := (fun x v => Host.reduce IntOp.andi x v reducesTo_S1024x96_S_d0_1 h_S_) main_v41 main_c_15
  let main_v43 : IVec S_ 1 := andi main_v38 main_v42
  let main_v44 : FVec F S96 .f32 := Host.absf main_arg10
  let main_cst_16 : FVec F S_ .f32 := constant S_ .f32 0x7F800000#32
  let main_v45 : FVec F S96 .f32 := broadcastInDim S96 ![] bcast_S_S96 main_cst_16
  let main_v46 : IVec S96 1 := cmpf .olt main_v44 main_v45
  let main_c_17 : IVec S_ 1 := constantI S_ 1 1#1
  let main_v47 : IVec S_ 1 := (fun x v => Host.reduce IntOp.andi x v reducesTo_S96_S_d0 h_S_) main_v46 main_c_17
  let main_v48 : IVec S_ 1 := andi main_v43 main_v47
  let main_v49 : FVec F S1024x64 .f32 := Host.absf main_arg11
  let main_cst_18 : FVec F S_ .f32 := constant S_ .f32 0x7F800000#32
  let main_v50 : FVec F S1024x64 .f32 := broadcastInDim S1024x64 ![] bcast_S_S1024x64 main_cst_18
  fn_part3 (F := F) main_arg12 main_arg13 main_arg14 main_v48 main_v49 main_v50

def fn_part1 {F : FTy → Type} [FloatOps F] (main_arg5 : FVec F S4x512x1024 .f32) (main_arg6 : FVec F S4x1024 .f32) (main_arg7 : FVec F S1024x128 .f32) (main_arg8 : FVec F S128 .f32) (main_arg9 : FVec F S1024x96 .f32) (main_arg10 : FVec F S96 .f32) (main_arg11 : FVec F S1024x64 .f32) (main_arg12 : FVec F S64 .f32) (main_arg13 : FVec F S1024x32 .f32) (main_arg14 : FVec F S32 .f32) (main_v13 : IVec S_ 1) (main_v16 : IVec S16384x512 1) : IVec S_ 1 :=
  let main_c_5 : IVec S_ 1 := constantI S_ 1 1#1
  let main_v17 : IVec S_ 1 := (fun x v => Host.reduce IntOp.andi x v reducesTo_S16384x512_S_d0_1 h_S_) main_v16 main_c_5
  let main_v18 : IVec S_ 1 := andi main_v13 main_v17
  let main_v19 : FVec F S4x512x1024 .f32 := Host.absf main_arg5
  let main_cst_6 : FVec F S_ .f32 := constant S_ .f32 0x7F800000#32
  let main_v20 : FVec F S4x512x1024 .f32 := broadcastInDim S4x512x1024 ![] bcast_S_S4x512x1024 main_cst_6
  let main_v21 : IVec S4x512x1024 1 := cmpf .olt main_v19 main_v20
  let main_c_7 : IVec S_ 1 := constantI S_ 1 1#1
  let main_v22 : IVec S_ 1 := (fun x v => Host.reduce IntOp.andi x v reducesTo_S4x512x1024_S_d0_1_2 h_S_) main_v21 main_c_7
  let main_v23 : IVec S_ 1 := andi main_v18 main_v22
  let main_v24 : FVec F S4x1024 .f32 := Host.absf main_arg6
  let main_cst_8 : FVec F S_ .f32 := constant S_ .f32 0x7F800000#32
  let main_v25 : FVec F S4x1024 .f32 := broadcastInDim S4x1024 ![] bcast_S_S4x1024 main_cst_8
  let main_v26 : IVec S4x1024 1 := cmpf .olt main_v24 main_v25
  let main_c_9 : IVec S_ 1 := constantI S_ 1 1#1
  let main_v27 : IVec S_ 1 := (fun x v => Host.reduce IntOp.andi x v reducesTo_S4x1024_S_d0_1 h_S_) main_v26 main_c_9
  let main_v28 : IVec S_ 1 := andi main_v23 main_v27
  let main_v29 : FVec F S1024x128 .f32 := Host.absf main_arg7
  let main_cst_10 : FVec F S_ .f32 := constant S_ .f32 0x7F800000#32
  let main_v30 : FVec F S1024x128 .f32 := broadcastInDim S1024x128 ![] bcast_S_S1024x128 main_cst_10
  let main_v31 : IVec S1024x128 1 := cmpf .olt main_v29 main_v30
  let main_c_11 : IVec S_ 1 := constantI S_ 1 1#1
  let main_v32 : IVec S_ 1 := (fun x v => Host.reduce IntOp.andi x v reducesTo_S1024x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S16384x512 .f32) (main_arg1 : FVec F S16384x512 .f32) (main_arg2 : FVec F S16384x512 .f32) (main_arg3 : FVec F S16384x512 .f32) (main_arg4 : IVec S65536 32) (main_arg5 : FVec F S4x512x1024 .f32) (main_arg6 : FVec F S4x1024 .f32) (main_arg7 : FVec F S1024x128 .f32) (main_arg8 : FVec F S128 .f32) (main_arg9 : FVec F S1024x96 .f32) (main_arg10 : FVec F S96 .f32) (main_arg11 : FVec F S1024x64 .f32) (main_arg12 : FVec F S64 .f32) (main_arg13 : FVec F S1024x32 .f32) (main_arg14 : FVec F S32 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S16384x512 .f32 := Host.absf main_arg3
  let main_cst_4 : FVec F S_ .f32 := constant S_ .f32 0x7F800000#32
  let main_v15 : FVec F S16384x512 .f32 := broadcastInDim S16384x512 ![] bcast_S_S16384x512 main_cst_4
  let main_v16 : IVec S16384x512 1 := cmpf .olt main_v14 main_v15
  fn_part1 (F := F) main_arg5 main_arg6 main_arg7 main_arg8 main_arg9 main_arg10 main_arg11 main_arg12 main_arg13 main_arg14 main_v13 main_v16
-- ==== Kernel.lean ====
abbrev S16384x512 : Shape := ⟨2, ![16384, 512]⟩
abbrev S65536 : Shape := ⟨1, ![65536]⟩
abbrev S4x512x1024 : Shape := ⟨3, ![4, 512, 1024]⟩
abbrev S4x1024 : Shape := ⟨2, ![4, 1024]⟩
abbrev S1024x128 : Shape := ⟨2, ![1024, 128]⟩
abbrev S128 : Shape := ⟨1, ![128]⟩
abbrev S1024x96 : Shape := ⟨2, ![1024, 96]⟩
abbrev S96 : Shape := ⟨1, ![96]⟩
abbrev S1024x64 : Shape := ⟨2, ![1024, 64]⟩
abbrev S64 : Shape := ⟨1, ![64]⟩
abbrev S1024x32 : Shape := ⟨2, ![1024, 32]⟩
abbrev S32 : Shape := ⟨1, ![32]⟩
abbrev S_ : Shape := ⟨0, ![]⟩
abbrev S1x1024x128 : Shape := ⟨3, ![1, 1024, 128]⟩
abbrev S4x1024x128 : Shape := ⟨3, ![4, 1024, 128]⟩
abbrev S1x128 : Shape := ⟨2, ![1, 128]⟩
abbrev S4x128 : Shape := ⟨2, ![4, 128]⟩
abbrev S4x16384x128 : Shape := ⟨3, ![4, 16384, 128]⟩
abbrev S512x512 : Shape := ⟨2, ![512, 512]⟩
abbrev S4x512x128 : Shape := ⟨3, ![4, 512, 128]⟩
abbrev S1x512x1024 : Shape := ⟨3, ![1, 512, 1024]⟩
abbrev S512x1024 : Shape := ⟨2, ![512, 1024]⟩
abbrev S1x1024 : Shape := ⟨2, ![1, 1024]⟩
abbrev S1024 : Shape := ⟨1, ![1024]⟩
abbrev S512x128 : Shape := ⟨2, ![512, 128]⟩
abbrev S1x512x128 : Shape := ⟨3, ![1, 512, 128]⟩

abbrev nBuf : Space → Nat
  | .hbm => 52
  | .vmem => 14
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S65536, .i32⟩
  | .hbm, ⟨5, _⟩ => ⟨S4x512x1024, .f32⟩
  | .hbm, ⟨6, _⟩ => ⟨S4x1024, .f32⟩
  | .hbm, ⟨7, _⟩ => ⟨S1024x128, .f32⟩
  | .hbm, ⟨8, _⟩ => ⟨S128, .f32⟩
  | .hbm, ⟨9, _⟩ => ⟨S1024x96, .f32⟩
  | .hbm, ⟨10, _⟩ => ⟨S96, .f32⟩
  | .hbm, ⟨11, _⟩ => ⟨S1024x64, .f32⟩
  | .hbm, ⟨12, _⟩ => ⟨S64, .f32⟩
  | .hbm, ⟨13, _⟩ => ⟨S1024x32, .f32⟩
  | .hbm, ⟨14, _⟩ => ⟨S32, .f32⟩
  | .hbm, ⟨15, _⟩ => ⟨S4x512x1024, .bf16⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S_, .i32⟩
  | .hbm, ⟨20, _⟩ => ⟨S_, .f32⟩
  | .hbm, ⟨21, _⟩ => ⟨S1024x128, .f32⟩
  | .hbm, ⟨22, _⟩ => ⟨S_, .i32⟩
  | .hbm, ⟨23, _⟩ => ⟨S_, .f32⟩
  | .hbm, ⟨24, _⟩ => ⟨S1024x128, .f32⟩
  | .hbm, ⟨25, _⟩ => ⟨S_, .i32⟩
  | .hbm, ⟨26, _⟩ => ⟨S_, .f32⟩
  | .hbm, ⟨27, _⟩ => ⟨S1024x128, .f32⟩
  | .hbm, ⟨28, _⟩ => ⟨S1x1024x128, .f32⟩
  | .hbm, ⟨29, _⟩ => ⟨S1x1024x128, .f32⟩
  | .hbm, ⟨30, _⟩ => ⟨S1x1024x128, .f32⟩
  | .hbm, ⟨31, _⟩ => ⟨S1x1024x128, .f32⟩
  | .hbm, ⟨32, _⟩ => ⟨S4x1024x128, .f32⟩
  | .hbm, ⟨33, _⟩ => ⟨S4x1024x128, .bf16⟩
  | .hbm, ⟨34, _⟩ => ⟨S_, .i32⟩
  | .hbm, ⟨35, _⟩ => ⟨S_, .f32⟩
  | .hbm, ⟨36, _⟩ => ⟨S128, .f32⟩
  | .hbm, ⟨37, _⟩ => ⟨S_, .i32⟩
  | .hbm, ⟨38, _⟩ => ⟨S_, .f32⟩
  | .hbm, ⟨39, _⟩ => ⟨S128, .f32⟩
  | .hbm, ⟨40, _⟩ => ⟨S_, .i32⟩
  | .hbm, ⟨41, _⟩ => ⟨S_, .f32⟩
  | .hbm, ⟨42, _⟩ => ⟨S128, .f32⟩
  | .hbm, ⟨43, _⟩ => ⟨S_, .i32⟩
  | .hbm, ⟨44, _⟩ => ⟨S_, .f32⟩
  | .hbm, ⟨45, _⟩ => ⟨S128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S4x128, .f32⟩
  | .hbm, ⟨51, _⟩ => ⟨S4x16384x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S4x512x1024, .bf16⟩
  | .local _ .vmem, ⟨9, _⟩ => ⟨S4x1024, .f32⟩
  | .local _ .vmem, ⟨10, _⟩ => ⟨S4x1024x128, .bf16⟩
  | .local _ .vmem, ⟨11, _⟩ => ⟨S4x128, .f32⟩
  | .local _ .vmem, ⟨12, _⟩ => ⟨S4x512x128, .f32⟩
  | .local _ .vmem, ⟨13, _⟩ => ⟨S4x512x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_call0_v0 : Ref sig .tc := ⟨.hbm, 17, rfl⟩
abbrev main_v1 : Ref sig .tc := ⟨.hbm, 18, rfl⟩
abbrev main_c_0 : Ref sig .tc := ⟨.hbm, 19, rfl⟩
abbrev main_call1_v0 : Ref sig .tc := ⟨.hbm, 20, rfl⟩
abbrev main_v2 : Ref sig .tc := ⟨.hbm, 21, rfl⟩
abbrev main_c_1 : Ref sig .tc := ⟨.hbm, 22, rfl⟩
abbrev main_call2_v0 : Ref sig .tc := ⟨.hbm, 23, rfl⟩
abbrev main_v3 : Ref sig .tc := ⟨.hbm, 24, rfl⟩
abbrev main_c_2 : Ref sig .tc := ⟨.hbm, 25, rfl⟩
abbrev main_call3_v0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c_3 : Ref sig .tc := ⟨.hbm, 34, rfl⟩
abbrev main_call4_v0 : Ref sig .tc := ⟨.hbm, 35, rfl⟩
abbrev main_v11 : Ref sig .tc := ⟨.hbm, 36, rfl⟩
abbrev main_c_4 : Ref sig .tc := ⟨.hbm, 37, rfl⟩
abbrev main_call5_v0 : Ref sig .tc := ⟨.hbm, 38, rfl⟩
abbrev main_v12 : Ref sig .tc := ⟨.hbm, 39, rfl⟩
abbrev main_c_5 : Ref sig .tc := ⟨.hbm, 40, rfl⟩
abbrev main_call6_v0 : Ref sig .tc := ⟨.hbm, 41, rfl⟩
abbrev main_v13 : Ref sig .tc := ⟨.hbm, 42, rfl⟩
abbrev main_c_6 : Ref sig .tc := ⟨.hbm, 43, rfl⟩
abbrev main_call7_v0 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  pads_S1024x128_S1024x128_000_000 : S1024x128.Pads (![0, 0] : Fin 2 → Nat) ![0, 0] ![0, 0] S1024x128
  h_S_ : 0 < S_.numel
  pads_S1024x96_S1024x128_000_0320 : S1024x96.Pads (![0, 0] : Fin 2 → Nat) ![0, 32] ![0, 0] S1024x128
  pads_S1024x64_S1024x128_000_0640 : S1024x64.Pads (![0, 0] : Fin 2 → Nat) ![0, 64] ![0, 0] S1024x128
  pads_S1024x32_S1024x128_000_0960 : S1024x32.Pads (![0, 0] : Fin 2 → Nat) ![0, 96] ![0, 0] S1024x128
  bcast_S1024x128_S1x1024x128_1_2 : S1024x128.BroadcastsInDim S1x1024x128 (![1, 2] : Fin 2 → Fin S1x1024x128.rank)
  concatenates_S1x1024x128_S1x1024x128_S1x1024x128_S1x1024x128_S4x1024x128_d0 : Shape.Concatenates [S1x1024x128, S1x1024x128, S1x1024x128, S1x1024x128] S4x1024x128 0
  pads_S128_S128_000 : S128.Pads (![0] : Fin 1 → Nat) ![0] ![0] S128
  pads_S96_S128_0320 : S96.Pads (![0] : Fin 1 → Nat) ![32] ![0] S128
  pads_S64_S128_0640 : S64.Pads (![0] : Fin 1 → Nat) ![64] ![0] S128
  pads_S32_S128_0960 : S32.Pads (![0] : Fin 1 → Nat) ![96] ![0] S128
  bcast_S128_S1x128_1 : S128.BroadcastsInDim S1x128 (![1] : Fin 1 → Fin S1x128.rank)
  concatenates_S1x128_S1x128_S1x128_S1x128_S4x128_d0 : Shape.Concatenates [S1x128, S1x128, S1x128, S1x128] S4x128 0
  inb_S512x512_S512x512_0_0 : ∀ a, (![0, 0] : Fin 2 → Nat) a + S512x512.size a ≤ S512x512.size a
  h_S512x512 : 0 < S512x512.numel
  inb_S4x512x1024_S1x512x1024_0_0_0 : ∀ a, (![0, 0, 0] : Fin 3 → Nat) a + S1x512x1024.size a ≤ S4x512x1024.size a
  h_S1x512x1024 : 0 < S1x512x1024.numel
  shapeCasts_S1x512x1024_S512x1024 : S1x512x1024.ShapeCasts S512x1024
  inb_S4x1024_S1x1024_0_0 : ∀ a, (![0, 0] : Fin 2 → Nat) a + S1x1024.size a ≤ S4x1024.size a
  h_S1x1024 : 0 < S1x1024.numel
  shapeCasts_S1x1024_S1024 : S1x1024.ShapeCasts S1024
  shapeCasts_S1024_S1x1024 : S1024.ShapeCasts S1x1024
  broadcasts_S1x1024_S512x1024 : S1x1024.Broadcasts S512x1024
  inb_S4x1024x128_S1x1024x128_0_0_0 : ∀ a, (![0, 0, 0] : Fin 3 → Nat) a + S1x1024x128.size a ≤ S4x1024x128.size a
  h_S1x1024x128 : 0 < S1x1024x128.numel
  shapeCasts_S1x1024x128_S1024x128 : S1x1024x128.ShapeCasts S1024x128
  inb_S4x128_S1x128_0_0 : ∀ a, (![0, 0] : Fin 2 → Nat) a + S1x128.size a ≤ S4x128.size a
  h_S1x128 : 0 < S1x128.numel
  shapeCasts_S1x128_S128 : S1x128.ShapeCasts S128
  shapeCasts_S128_S1x128 : S128.ShapeCasts S1x128
  broadcasts_S1x128_S512x128 : S1x128.Broadcasts S512x128
  inb_S4x512x128_S1x512x128_0_0_0 : ∀ a, (![0, 0, 0] : Fin 3 → Nat) a + S1x512x128.size a ≤ S4x512x128.size a
  h_S1x512x128 : 0 < S1x512x128.numel
  shapeCasts_S1x512x128_S512x128 : S1x512x128.ShapeCasts S512x128
  shapeCasts_S512x128_S1x512x128 : S512x128.ShapeCasts S1x512x128
  inb_S4x512x1024_S1x512x1024_1_0_0 : ∀ a, (![1, 0, 0] : Fin 3 → Nat) a + S1x512x1024.size a ≤ S4x512x1024.size a
  inb_S4x1024_S1x1024_1_0 : ∀ a, (![1, 0] : Fin 2 → Nat) a + S1x1024.size a ≤ S4x1024.size a
  inb_S4x1024x128_S1x1024x128_1_0_0 : ∀ a, (![1, 0, 0] : Fin 3 → Nat) a + S1x1024x128.size a ≤ S4x1024x128.size a
  inb_S4x128_S1x128_1_0 : ∀ a, (![1, 0] : Fin 2 → Nat) a + S1x128.size a ≤ S4x128.size a
  inb_S4x512x128_S1x512x128_1_0_0 : ∀ a, (![1, 0, 0] : Fin 3 → Nat) a + S1x512x128.size a ≤ S4x512x128.size a
  inb_S4x512x1024_S1x512x1024_2_0_0 : ∀ a, (![2, 0, 0] : Fin 3 → Nat) a + S1x512x1024.size a ≤ S4x512x1024.size a
  inb_S4x1024_S1x1024_2_0 : ∀ a, (![2, 0] : Fin 2 → Nat) a + S1x1024.size a ≤ S4x1024.size a
  inb_S4x1024x128_S1x1024x128_2_0_0 : ∀ a, (![2, 0, 0] : Fin 3 → Nat) a + S1x1024x128.size a ≤ S4x1024x128.size a
  inb_S4x128_S1x128_2_0 : ∀ a, (![2, 0] : Fin 2 → Nat) a + S1x128.size a ≤ S4x128.size a
  inb_S4x512x128_S1x512x128_2_0_0 : ∀ a, (![2, 0, 0] : Fin 3 → Nat) a + S1x512x128.size a ≤ S4x512x128.size a
  inb_S4x512x1024_S1x512x1024_3_0_0 : ∀ a, (![3, 0, 0] : Fin 3 → Nat) a + S1x512x1024.size a ≤ S4x512x1024.size a
  inb_S4x1024_S1x1024_3_0 : ∀ a, (![3, 0] : Fin 2 → Nat) a + S1x1024.size a ≤ S4x1024.size a
  inb_S4x1024x128_S1x1024x128_3_0_0 : ∀ a, (![3, 0, 0] : Fin 3 → Nat) a + S1x1024x128.size a ≤ S4x1024x128.size a
  inb_S4x128_S1x128_3_0 : ∀ a, (![3, 0] : Fin 2 → Nat) a + S1x128.size a ≤ S4x128.size a
  inb_S4x512x128_S1x512x128_3_0_0 : ∀ a, (![3, 0, 0] : Fin 3 → Nat) a + S1x512x128.size a ≤ S4x512x128.size a
  dot_S512x512_S512x1024_S512x1024_1_0_0_1_n_n_wf : DotDims.WF S512x512 S512x1024 S512x1024 [1] [0] [0] [1] [] []
  dot_S512x1024_S1024x128_S512x128_1_0_0_1_n_n_wf : DotDims.WF S512x1024 S1024x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S16384x512.size a
  hwx0_2 : ∀ i : grid0.Coords, EltTy.bits .f32 = 32 ∨ (Rect.block (s := S16384x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S16384x512.size a
  hwx0_3 : ∀ i : grid0.Coords, EltTy.bits .f32 = 32 ∨ (Rect.block (s := S16384x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x512x1024.size a ≤ S4x512x1024.size a
  hwx0_4 : ∀ i : grid0.Coords, EltTy.bits .bf16 = 32 ∨ (Rect.block (s := S4x512x1024) S4x512x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x1024.size a ≤ S4x1024.size a
  hwx0_5 : ∀ i : grid0.Coords, EltTy.bits .f32 = 32 ∨ (Rect.block (s := S4x1024) S4x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x1024x128.size a ≤ S4x1024x128.size a
  hwx0_6 : ∀ i : grid0.Coords, EltTy.bits .bf16 = 32 ∨ (Rect.block (s := S4x1024x128) S4x1024x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x128.size a ≤ S4x128.size a
  hwx0_7 : ∀ i : grid0.Coords, EltTy.bits .f32 = 32 ∨ (Rect.block (s := S4x128) S4x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4x512x128.size a ≤ S4x16384x128.size a
  hwx0_8 : ∀ i : grid0.Coords, EltTy.bits .f32 = 32 ∨ (Rect.block (s := S4x16384x128) S4x512x128.size (cc0_transform_8 i) (hinb0_8 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S4x512x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S4x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S4x1024x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S4x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S4x512x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x512 : Shape := ⟨2, ![16384, 512]⟩
abbrev S65536 : Shape := ⟨1, ![65536]⟩
abbrev S4x512x1024 : Shape := ⟨3, ![4, 512, 1024]⟩
abbrev S4x1024 : Shape := ⟨2, ![4, 1024]⟩
abbrev S1024x128 : Shape := ⟨2, ![1024, 128]⟩
abbrev S128 : Shape := ⟨1, ![128]⟩
abbrev S1024x96 : Shape := ⟨2, ![1024, 96]⟩
abbrev S96 : Shape := ⟨1, ![96]⟩
abbrev S1024x64 : Shape := ⟨2, ![1024, 64]⟩
abbrev S64 : Shape := ⟨1, ![64]⟩
abbrev S1024x32 : Shape := ⟨2, ![1024, 32]⟩
abbrev S32 : Shape := ⟨1, ![32]⟩
abbrev S1x16384x512 : Shape := ⟨3, ![1, 16384, 512]⟩
abbrev S4x16384x512 : Shape := ⟨3, ![4, 16384, 512]⟩
abbrev S4x16384x1024 : Shape := ⟨3, ![4, 16384, 1024]⟩
abbrev S4x1x1024 : Shape := ⟨3, ![4, 1, 1024]⟩
abbrev S_ : Shape := ⟨0, ![]⟩
abbrev S1x16384x1024 : Shape := ⟨3, ![1, 16384, 1024]⟩
abbrev S16384x1024 : Shape := ⟨2, ![16384, 1024]⟩
abbrev S16384x128 : Shape := ⟨2, ![16384, 128]⟩
abbrev S1x128 : Shape := ⟨2, ![1, 128]⟩
abbrev S16384x96 : Shape := ⟨2, ![16384, 96]⟩
abbrev S1x96 : Shape := ⟨2, ![1, 96]⟩
abbrev S16384x64 : Shape := ⟨2, ![16384, 64]⟩
abbrev S1x64 : Shape := ⟨2, ![1, 64]⟩
abbrev S16384x32 : Shape := ⟨2, ![16384, 32]⟩
abbrev S1x32 : Shape := ⟨2, ![1, 32]⟩
abbrev S1x16384x128 : Shape := ⟨3, ![1, 16384, 128]⟩
abbrev S4x16384x128 : Shape := ⟨3, ![4, 16384, 128]⟩

abbrev nBuf : Space → Nat
  | .hbm => 68
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S65536, .i32⟩
  | .hbm, ⟨5, _⟩ => ⟨S4x512x1024, .f32⟩
  | .hbm, ⟨6, _⟩ => ⟨S4x1024, .f32⟩
  | .hbm, ⟨7, _⟩ => ⟨S1024x128, .f32⟩
  | .hbm, ⟨8, _⟩ => ⟨S128, .f32⟩
  | .hbm, ⟨9, _⟩ => ⟨S1024x96, .f32⟩
  | .hbm, ⟨10, _⟩ => ⟨S96, .f32⟩
  | .hbm, ⟨11, _⟩ => ⟨S1024x64, .f32⟩
  | .hbm, ⟨12, _⟩ => ⟨S64, .f32⟩
  | .hbm, ⟨13, _⟩ => ⟨S1024x32, .f32⟩
  | .hbm, ⟨14, _⟩ => ⟨S32, .f32⟩
  | .hbm, ⟨15, _⟩ => ⟨S1x16384x512, .f32⟩
  | .hbm, ⟨16, _⟩ => ⟨S1x16384x512, .f32⟩
  | .hbm, ⟨17, _⟩ => ⟨S1x16384x512, .f32⟩
  | .hbm, ⟨18, _⟩ => ⟨S1x16384x512, .f32⟩
  | .hbm, ⟨19, _⟩ => ⟨S4x16384x512, .f32⟩
  | .hbm, ⟨20, _⟩ => ⟨S4x16384x1024, .f32⟩
  | .hbm, ⟨21, _⟩ => ⟨S4x1x1024, .f32⟩
  | .hbm, ⟨22, _⟩ => ⟨S4x16384x1024, .f32⟩
  | .hbm, ⟨23, _⟩ => ⟨S4x16384x1024, .f32⟩
  | .hbm, ⟨24, _⟩ => ⟨S_, .f32⟩
  | .hbm, ⟨25, _⟩ => ⟨S4x16384x1024, .f32⟩
  | .hbm, ⟨26, _⟩ => ⟨S4x16384x1024, .f32⟩
  | .hbm, ⟨27, _⟩ => ⟨S1x16384x1024, .f32⟩
  | .hbm, ⟨28, _⟩ => ⟨S16384x1024, .f32⟩
  | .hbm, ⟨29, _⟩ => ⟨S16384x128, .f32⟩
  | .hbm, ⟨30, _⟩ => ⟨S1x128, .f32⟩
  | .hbm, ⟨31, _⟩ => ⟨S16384x128, .f32⟩
  | .hbm, ⟨32, _⟩ => ⟨S16384x128, .f32⟩
  | .hbm, ⟨33, _⟩ => ⟨S_, .i32⟩
  | .hbm, ⟨34, _⟩ => ⟨S_, .f32⟩
  | .hbm, ⟨35, _⟩ => ⟨S16384x128, .f32⟩
  | .hbm, ⟨36, _⟩ => ⟨S1x16384x1024, .f32⟩
  | .hbm, ⟨37, _⟩ => ⟨S16384x1024, .f32⟩
  | .hbm, ⟨38, _⟩ => ⟨S16384x96, .f32⟩
  | .hbm, ⟨39, _⟩ => ⟨S1x96, .f32⟩
  | .hbm, ⟨40, _⟩ => ⟨S16384x96, .f32⟩
  | .hbm, ⟨41, _⟩ => ⟨S16384x96, .f32⟩
  | .hbm, ⟨42, _⟩ => ⟨S_, .i32⟩
  | .hbm, ⟨43, _⟩ => ⟨S_, .f32⟩
  | .hbm, ⟨44, _⟩ => ⟨S16384x128, .f32⟩
  | .hbm, ⟨45, _⟩ => ⟨S1x16384x1024, .f32⟩
  | .hbm, ⟨46, _⟩ => ⟨S16384x1024, .f32⟩
  | .hbm, ⟨47, _⟩ => ⟨S16384x64, .f32⟩
  | .hbm, ⟨48, _⟩ => ⟨S1x64, .f32⟩
  | .hbm, ⟨49, _⟩ => ⟨S16384x64, .f32⟩
  | .hbm, ⟨50, _⟩ => ⟨S16384x64, .f32⟩
  | .hbm, ⟨51, _⟩ => ⟨S_, .i32⟩
  | .hbm, ⟨52, _⟩ => ⟨S_, .f32⟩
  | .hbm, ⟨53, _⟩ => ⟨S16384x128, .f32⟩
  | .hbm, ⟨54, _⟩ => ⟨S1x16384x1024, .f32⟩
  | .hbm, ⟨55, _⟩ => ⟨S16384x1024, .f32⟩
  | .hbm, ⟨56, _⟩ => ⟨S16384x32, .f32⟩
  | .hbm, ⟨57, _⟩ => ⟨S1x32, .f32⟩
  | .hbm, ⟨58, _⟩ => ⟨S16384x32, .f32⟩
  | .hbm, ⟨59, _⟩ => ⟨S16384x32, .f32⟩
  | .hbm, ⟨60, _⟩ => ⟨S_, .i32⟩
  | .hbm, ⟨61, _⟩ => ⟨S_, .f32⟩
  | .hbm, ⟨62, _⟩ => ⟨S16384x128, .f32⟩
  | .hbm, ⟨63, _⟩ => ⟨S1x16384x128, .f32⟩
  | .hbm, ⟨64, _⟩ => ⟨S1x16384x128, .f32⟩
  | .hbm, ⟨65, _⟩ => ⟨S1x16384x128, .f32⟩
  | .hbm, ⟨66, _⟩ => ⟨S1x16384x128, .f32⟩
  | .hbm, ⟨67, _⟩ => ⟨S4x16384x128, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call0_cst : Ref sig .tc := ⟨.hbm, 24, rfl⟩
abbrev main_call0_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c : Ref sig .tc := ⟨.hbm, 33, rfl⟩
abbrev main_call1_v0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_0 : Ref sig .tc := ⟨.hbm, 42, rfl⟩
abbrev main_call2_v0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_1 : Ref sig .tc := ⟨.hbm, 51, rfl⟩
abbrev main_call3_v0 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_2 : Ref sig .tc := ⟨.hbm, 60, rfl⟩
abbrev main_call4_v0 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]

class Facts₀ : Prop where
  bcast_S16384x512_S1x16384x512_1_2 : S16384x512.BroadcastsInDim S1x16384x512 (![1, 2] : Fin 2 → Fin S1x16384x512.rank)
  concatenates_S1x16384x512_S1x16384x512_S1x16384x512_S1x16384x512_S4x16384x512_d0 : Shape.Concatenates [S1x16384x512, S1x16384x512, S1x16384x512, S1x16384x512] S4x16384x512 0
  bcast_S4x1024_S4x1x1024_0_2 : S4x1024.BroadcastsInDim S4x1x1024 (![0, 2] : Fin 2 → Fin S4x1x1024.rank)
  bcast_S4x1x1024_S4x16384x1024_0_1_2 : S4x1x1024.BroadcastsInDim S4x16384x1024 (![0, 1, 2] : Fin 3 → Fin S4x16384x1024.rank)
  bcast_S_S4x16384x1024 : S_.BroadcastsInDim S4x16384x1024 (![] : Fin 0 → Fin S4x16384x1024.rank)
  slices_S4x16384x1024_S1x16384x1024_0_0_0 : S4x16384x1024.Slices ![0, 0, 0] S1x16384x1024
  shapeCasts_S1x16384x1024_S16384x1024 : S1x16384x1024.ShapeCasts S16384x1024
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  pads_S16384x128_S16384x128_000_000 : S16384x128.Pads (![0, 0] : Fin 2 → Nat) ![0, 0] ![0, 0] S16384x128
  h_S_ : 0 < S_.numel
  slices_S4x16384x1024_S1x16384x1024_1_0_0 : S4x16384x1024.Slices ![1, 0, 0] S1x16384x1024
  bcast_S96_S1x96_1 : S96.BroadcastsInDim S1x96 (![1] : Fin 1 → Fin S1x96.rank)
  bcast_S1x96_S16384x96_0_1 : S1x96.BroadcastsInDim S16384x96 (![0, 1] : Fin 2 → Fin S16384x96.rank)
  pads_S16384x96_S16384x128_000_0320 : S16384x96.Pads (![0, 0] : Fin 2 → Nat) ![0, 32] ![0, 0] S16384x128
  slices_S4x16384x1024_S1x16384x1024_2_0_0 : S4x16384x1024.Slices ![2, 0, 0] S1x16384x1024
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  pads_S16384x64_S16384x128_000_0640 : S16384x64.Pads (![0, 0] : Fin 2 → Nat) ![0, 64] ![0, 0] S16384x128
  slices_S4x16384x1024_S1x16384x1024_3_0_0 : S4x16384x1024.Slices ![3, 0, 0] S1x16384x1024
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  pads_S16384x32_S16384x128_000_0960 : S16384x32.Pads (![0, 0] : Fin 2 → Nat) ![0, 96] ![0, 0] S16384x128
  bcast_S16384x128_S1x16384x128_1_2 : S16384x128.BroadcastsInDim S1x16384x128 (![1, 2] : Fin 2 → Fin S1x16384x128.rank)
  concatenates_S1x16384x128_S1x16384x128_S1x16384x128_S1x16384x128_S4x16384x128_d0 : Shape.Concatenates [S1x16384x128, S1x16384x128, S1x16384x128, S1x16384x128] S4x16384x128 0
  dot_S4x16384x512_S4x512x1024_S4x16384x1024_2_1_1_2_0_0_wf : DotDims.WF S4x16384x512 S4x512x1024 S4x16384x1024 [2] [1] [1] [2] [0] [0]
  dot_S16384x1024_S1024x128_S16384x128_1_0_0_1_n_n_wf : DotDims.WF S16384x1024 S1024x128 S16384x128 [1] [0] [0] [1] [] []
  dot_S16384x1024_S1024x96_S16384x96_1_0_0_1_n_n_wf : DotDims.WF S16384x1024 S1024x96 S16384x96 [1] [0] [0] [1] [] []
  dot_S16384x1024_S1024x64_S16384x64_1_0_0_1_n_n_wf : DotDims.WF S16384x1024 S1024x64 S16384x64 [1] [0] [0] [1] [] []
  dot_S16384x1024_S1024x32_S16384x32_1_0_0_1_n_n_wf : DotDims.WF S16384x1024 S1024x32 S16384x32 [1] [0] [0] [1] [] []

variable [Facts₀]

def dot_S4x16384x512_S4x512x1024_S4x16384x1024_2_1_1_2_0_0 : DotDims S4x16384x512 S4x512x1024 S4x16384x1024 where
  lhsContracting := [2]
  rhsContracting := [1]
  lhsNonContracting := [1]
  rhsNonContracting := [2]
  lhsBatch := [0]
  rhsBatch := [0]
  wf := dot_S4x16384x512_S4x512x1024_S4x16384x1024_2_1_1_2_0_0_wf
def dot_S16384x1024_S1024x128_S16384x128_1_0_0_1_n_n : DotDims S16384x1024 S1024x128 S16384x128 where
  lhsContracting := [1]
  rhsContracting := [0]
  lhsNonContracting := [0]
  rhsNonContracting := [1]
  lhsBatch := []
  rhsBatch := []
  wf := dot_S16384x1024_S1024x128_S16384x128_1_0_0_1_n_n_wf
def dot_S16384x1024_S1024x96_S16384x96_1_0_0_1_n_n : DotDims S16384x1024 S1024x96 S16384x96 where
  lhsContracting := [1]
  rhsContracting := [0]
  lhsNonContracting := [0]
  rhsNonContracting := [1]
  lhsBatch := []
  rhsBatch := []
  wf := dot_S16384x1024_S1024x96_S16384x96_1_0_0_1_n_n_wf
def dot_S16384x1024_S1024x64_S16384x64_1_0_0_1_n_n : DotDims S16384x1024 S1024x64 S16384x64 where
  lhsContracting := [1]
  rhsContracting := [0]
  lhsNonContracting := [0]
  rhsNonContracting := [1]
  lhsBatch := []
  rhsBatch := []
  wf := dot_S16384x1024_S1024x64_S16384x64_1_0_0_1_n_n_wf
def dot_S16384x1024_S1024x32_S16384x32_1_0_0_1_n_n : DotDims S16384x1024 S1024x32 S16384x32 where
  lhsContracting := [1]
  rhsContracting := [0]
  lhsNonContracting := [0]
  rhsNonContracting := [1]
  lhsBatch := []
  rhsBatch := []
  wf := dot_S16384x1024_S1024x32_S16384x32_1_0_0_1_n_n_wf

class Facts : Prop extends Facts₀ where

variable [Facts]
-- ==== Proof.FrameDataB.lean ====
/-
  The one pipeline of the kernel as printed, as data: what the region finds in every buffer when it is entered (the
  host lines before it applied to the launch memory), each window's block at a grid point, the rectangles the body
  loads and stores through, and what the body leaves in the output window's staging buffer: its four stores, one slab
  of the buffer per node type, as pieces over the payloads of the input blocks. The four slabs tile the buffer, so the
  pieces cover it and the buffer's contents after the body do not depend on what it held before.
-/
import proofs.«117456_j13099650253498_1_alg».proof.Proof.Gen.Kernel.Launch
import proofs.«117456_j13099650253498_1_alg».proof.Proof.Gen.Kernel.Skeleton
import proofs.«117456_j13099650253498_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers when the region is entered -/

/-- The host lines before the region, stretch by stretch (a padding function called from @main is a stretch of its own). -/
abbrev hostPrefix : List (List (HloOp τ sig (Elt F))) :=
  [hostOps0, hostOps0_1, hostOps0_2, hostOps0_3, hostOps0_4, hostOps0_5, hostOps0_6, hostOps0_7, hostOps0_8,
   hostOps0_9, hostOps0_10, hostOps0_11, hostOps0_12, hostOps0_13, hostOps0_14, hostOps0_15, hostOps0_16]

/-- Core c's buffers when the region is entered: the launch memory after the host lines before the region. -/
abbrev V (c : Dev nD) (b : Ref sig .tc) : Buf (Elt F) ((c : Thread nD τ).loc b) :=
  StableHlo.after (List.flatten (hostPrefix (F := F))) (fun b => m (c, b)) b

/-! ## The windows' blocks -/

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The rectangles of the body's loads and stores -/

abbrev rX : Rect S512x512 := Rect.unit (s := S512x512) ![0, 0] S512x512.size inb_S512x512_S512x512_0_0
abbrev rW1_0 : Rect S4x512x1024 := Rect.unit (s := S4x512x1024) ![0, 0, 0] S1x512x1024.size inb_S4x512x1024_S1x512x1024_0_0_0
abbrev rB1_0 : Rect S4x1024 := Rect.unit (s := S4x1024) ![0, 0] S1x1024.size inb_S4x1024_S1x1024_0_0
abbrev rW2_0 : Rect S4x1024x128 := Rect.unit (s := S4x1024x128) ![0, 0, 0] S1x1024x128.size inb_S4x1024x128_S1x1024x128_0_0_0
abbrev rB2_0 : Rect S4x128 := Rect.unit (s := S4x128) ![0, 0] S1x128.size inb_S4x128_S1x128_0_0
abbrev rO_0 : Rect S4x512x128 := Rect.unit (s := S4x512x128) ![0, 0, 0] S1x512x128.size inb_S4x512x128_S1x512x128_0_0_0
abbrev rW1_1 : Rect S4x512x1024 := Rect.unit (s := S4x512x1024) ![1, 0, 0] S1x512x1024.size inb_S4x512x1024_S1x512x1024_1_0_0
abbrev rB1_1 : Rect S4x1024 := Rect.unit (s := S4x1024) ![1, 0] S1x1024.size inb_S4x1024_S1x1024_1_0
abbrev rW2_1 : Rect S4x1024x128 := Rect.unit (s := S4x1024x128) ![1, 0, 0] S1x1024x128.size inb_S4x1024x128_S1x1024x128_1_0_0
abbrev rB2_1 : Rect S4x128 := Rect.unit (s := S4x128) ![1, 0] S1x128.size inb_S4x128_S1x128_1_0
abbrev rO_1 : Rect S4x512x128 := Rect.unit (s := S4x512x128) ![1, 0, 0] S1x512x128.size inb_S4x512x128_S1x512x128_1_0_0
abbrev rW1_2 : Rect S4x512x1024 := Rect.unit (s := S4x512x1024) ![2, 0, 0] S1x512x1024.size inb_S4x512x1024_S1x512x1024_2_0_0
abbrev rB1_2 : Rect S4x1024 := Rect.unit (s := S4x1024) ![2, 0] S1x1024.size inb_S4x1024_S1x1024_2_0
abbrev rW2_2 : Rect S4x1024x128 := Rect.unit (s := S4x1024x128) ![2, 0, 0] S1x1024x128.size inb_S4x1024x128_S1x1024x128_2_0_0
abbrev rB2_2 : Rect S4x128 := Rect.unit (s := S4x128) ![2, 0] S1x128.size inb_S4x128_S1x128_2_0
abbrev rO_2 : Rect S4x512x128 := Rect.unit (s := S4x512x128) ![2, 0, 0] S1x512x128.size inb_S4x512x128_S1x512x128_2_0_0
abbrev rW1_3 : Rect S4x512x1024 := Rect.unit (s := S4x512x1024) ![3, 0, 0] S1x512x1024.size inb_S4x512x1024_S1x512x1024_3_0_0
abbrev rB1_3 : Rect S4x1024 := Rect.unit (s := S4x1024) ![3, 0] S1x1024.size inb_S4x1024_S1x1024_3_0
abbrev rW2_3 : Rect S4x1024x128 := Rect.unit (s := S4x1024x128) ![3, 0, 0] S1x1024x128.size inb_S4x1024x128_S1x1024x128_3_0_0
abbrev rB2_3 : Rect S4x128 := Rect.unit (s := S4x128) ![3, 0] S1x128.size inb_S4x128_S1x128_3_0
abbrev rO_3 : Rect S4x512x128 := Rect.unit (s := S4x512x128) ![3, 0, 0] S1x512x128.size inb_S4x512x128_S1x512x128_3_0_0

/-! ## What the body leaves in the output window's buffer -/

/-- The output window's staging buffer after the body, from the eight input blocks: slab t is node type t's payload
    of the rows' block, slab t of both weight blocks and row t of both bias blocks. The pieces are listed last store
    first. -/
def out0_8 (x0 x1 x2 x3 : Vec F S512x512 .f32) (x4 : Vec F S4x512x1024 .bf16) (x5 : Vec F S4x1024 .f32)
    (x6 : Vec F S4x1024x128 .bf16) (x7 : Vec F S4x128 .f32) : Vec F S4x512x128 .f32 :=
  View.canon [⟨rO_3, k0_pay2 (View.ld x3 rX) (View.ld x4 rW1_3) (View.ld x5 rB1_3) (View.ld x6 rW2_3) (View.ld x7 rB2_3)⟩,
    ⟨rO_2, k0_pay1 (k0_pay7 (View.ld x7 rB2_2)) (k0_pay8 (View.ld x2 rX) (View.ld x4 rW1_2) (View.ld x5 rB1_2) (View.ld x6 rW2_2))⟩,
    ⟨rO_1, k0_pay6 (k0_pay4 (View.ld x1 rX) (View.ld x4 rW1_1)) (k0_pay5 (View.ld x5 rB1_1)) (View.ld x6 rW2_1) (View.ld x7 rB2_1)⟩,
    ⟨rO_0, k0_pay3 (View.ld x0 rX) (View.ld x4 rW1_0) (View.ld x5 rB1_0) (View.ld x6 rW2_0) (View.ld x7 rB2_0)⟩]

/-- The four slabs tile the buffer, so the stores cover it. -/
theorem cover0_8 (p0 p1 p2 p3 : Vec F S1x512x128 .f32) (y : S4x512x128.Idx) :
    ∃ pc ∈ ([⟨rO_3, p0⟩, ⟨rO_2, p1⟩, ⟨rO_1, p2⟩, ⟨rO_0, p3⟩] : List (View.Piece (Elt F) S4x512x128 .f32)), y ∈ pc.1.set :=
  View.cover_of_tiled [⟨rO_3, p0⟩, ⟨rO_2, p1⟩, ⟨rO_1, p2⟩, ⟨rO_0, p3⟩] S1x512x128.size (by rfl) y

/-! ## The pipeline's proof data -/

/-- The proof data of the pipeline on core c: the arrays as the region finds them; after the body at point t each
    input's buffer at its block and the output's at out0_8 of the input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t
    = out0_8 (iblk m c 0 t) (iblk m c 1 t) (iblk m c 2 t) (iblk m c 3 t) (iblk m c 4 t) (iblk m c 5 t) (iblk m c 6 t) (iblk m c 7 t) := by
  dsimp only [dats]

end Cert.Kernel.Hand

end
-- ==== Proof.FrameBodyB.lean ====
/-
  The body's triple. On whole staging memrefs, the eight inputs' at read contents and the output's at anything, the
  kernel body runs to a continuation that holds the inputs' as they were and the output's at out0_8 of the inputs:
  node type by node type it loads the rows' block, one slab of each weight block and one row of each bias block,
  reads (and never uses) the output slab it is about to overwrite, and stores the payload into that slab. What the
  output buffer held before is overwritten everywhere, because the four slabs cover it.
-/
import proofs.«117456_j13099650253498_1_alg».proof.Proof.FrameDataB

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem sound_kernel (c : Dev nD) (E : Set ℕ) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S4x512x1024 .bf16) (harg5 : arg5.IsWhole) (arg6 : Memref sig .tc .vmem S4x1024 .f32) (harg6 : arg6.IsWhole) (arg7 : Memref sig .tc .vmem S4x1024x128 .bf16) (harg7 : arg7.IsWhole) (arg8 : Memref sig .tc .vmem S4x128 .f32) (harg8 : arg8.IsWhole) (arg9 : Memref sig .tc .vmem S4x512x128 .f32) (harg9 : arg9.IsWhole)
    (x0 : Vec F S512x512 .f32) (x1 : Vec F S512x512 .f32) (x2 : Vec F S512x512 .f32) (x3 : Vec F S512x512 .f32) (x4 : Vec F S4x512x1024 .bf16) (x5 : Vec F S4x1024 .f32) (x6 : Vec F S4x1024x128 .bf16) (x7 : Vec F S4x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9) K := by
  simp only [cc0__kernel_eq_skeleton]; unfold cc0__kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover0_8 _ _ _ _)

end Cert.Kernel.Hand

end
-- ==== Proof.FrameRunB.lean ====
/-
  The run of the kernel as printed's @main and its frame. The host lines before the region write fresh result buffers
  only, so every argument array reaches the region as launched; at every grid point each input window's staging buffer
  holds that window's block (fetched there, or left in place by the point before when the block index has not moved:
  the weight and bias windows are fetched once); the body's triple then gives the pipeline's obligation at every
  point, and the library's launch theorem the run: it terminates, nothing faults, every array a window stages ends at
  what the proof data computes and every other buffer as the region found it.
-/
import proofs.«117456_j13099650253498_1_alg».proof.Proof.FrameBodyB

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor

/-- @main is the host lines, stretch by stretch, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (hostPrefix (F := F))
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## Each input window's buffer holds its block at every point -/

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' memrefs hold their blocks, so the body's triple applies; the invariant and the
    core's owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the run terminates, nothing faults, and every argument array ends as launched: an argument a window
    stages is an input window's array, which the pipeline only reads; any other is a buffer the region does not touch;
    and no host line before the region writes an argument. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 5).trans (((dats m 0 c).arrAt_in 5 rfl _).trans ((A_eq m c 5).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) (run_main m ρ)

/-- The same run with the result array named: after the run it holds what the proof data computes for the output
    window, the blocks the grid points wrote back. -/
theorem run_named : θ_run defs (onTc (τ := τ) (main (F := F))) ⟨m, fun _ => 0, ρ⟩ (fun r => ∀ c : Dev nD,
      r.2.mem ((c.tc : Thread nD τ).loc main_v20) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c).1 8, ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 5).trans (((dats m 0 c).arrAt_in 5 rfl _).trans ((A_eq m c 5).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) (run_main m ρ)

end Cert.Kernel.Hand

end
-- ==== Proof.FrameDataI.lean ====
/-
  The one pipeline of the idealized kernel, as data: what the region finds in every buffer when it is entered (the
  host lines before it applied to the launch memory), each window's block at a grid point, the rectangles the body
  loads and stores through, and what the body leaves in the output window's staging buffer: its four stores, one slab
  of the buffer per node type, as pieces over the payloads of the input blocks. The four slabs tile the buffer, so the
  pieces cover it and the buffer's contents after the body do not depend on what it held before.
-/
import proofs.«117456_j13099650253498_1_alg».proof.Proof.Gen.KernelIdeal.Launch
import proofs.«117456_j13099650253498_1_alg».proof.Proof.Gen.KernelIdeal.Skeleton
import proofs.«117456_j13099650253498_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers when the region is entered -/

/-- The host lines before the region, stretch by stretch (a padding function called from @main is a stretch of its own). -/
abbrev hostPrefix : List (List (HloOp τ sig (Elt F))) :=
  [hostOps0, hostOps0_1, hostOps0_2, hostOps0_3, hostOps0_4, hostOps0_5, hostOps0_6, hostOps0_7, hostOps0_8,
   hostOps0_9, hostOps0_10, hostOps0_11, hostOps0_12, hostOps0_13, hostOps0_14, hostOps0_15, hostOps0_16]

/-- Core c's buffers when the region is entered: the launch memory after the host lines before the region. -/
abbrev V (c : Dev nD) (b : Ref sig .tc) : Buf (Elt F) ((c : Thread nD τ).loc b) :=
  StableHlo.after (List.flatten (hostPrefix (F := F))) (fun b => m (c, b)) b

/-! ## The windows' blocks -/

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The rectangles of the body's loads and stores -/

abbrev rX : Rect S512x512 := Rect.unit (s := S512x512) ![0, 0] S512x512.size inb_S512x512_S512x512_0_0
abbrev rW1_0 : Rect S4x512x1024 := Rect.unit (s := S4x512x1024) ![0, 0, 0] S1x512x1024.size inb_S4x512x1024_S1x512x1024_0_0_0
abbrev rB1_0 : Rect S4x1024 := Rect.unit (s := S4x1024) ![0, 0] S1x1024.size inb_S4x1024_S1x1024_0_0
abbrev rW2_0 : Rect S4x1024x128 := Rect.unit (s := S4x1024x128) ![0, 0, 0] S1x1024x128.size inb_S4x1024x128_S1x1024x128_0_0_0
abbrev rB2_0 : Rect S4x128 := Rect.unit (s := S4x128) ![0, 0] S1x128.size inb_S4x128_S1x128_0_0
abbrev rO_0 : Rect S4x512x128 := Rect.unit (s := S4x512x128) ![0, 0, 0] S1x512x128.size inb_S4x512x128_S1x512x128_0_0_0
abbrev rW1_1 : Rect S4x512x1024 := Rect.unit (s := S4x512x1024) ![1, 0, 0] S1x512x1024.size inb_S4x512x1024_S1x512x1024_1_0_0
abbrev rB1_1 : Rect S4x1024 := Rect.unit (s := S4x1024) ![1, 0] S1x1024.size inb_S4x1024_S1x1024_1_0
abbrev rW2_1 : Rect S4x1024x128 := Rect.unit (s := S4x1024x128) ![1, 0, 0] S1x1024x128.size inb_S4x1024x128_S1x1024x128_1_0_0
abbrev rB2_1 : Rect S4x128 := Rect.unit (s := S4x128) ![1, 0] S1x128.size inb_S4x128_S1x128_1_0
abbrev rO_1 : Rect S4x512x128 := Rect.unit (s := S4x512x128) ![1, 0, 0] S1x512x128.size inb_S4x512x128_S1x512x128_1_0_0
abbrev rW1_2 : Rect S4x512x1024 := Rect.unit (s := S4x512x1024) ![2, 0, 0] S1x512x1024.size inb_S4x512x1024_S1x512x1024_2_0_0
abbrev rB1_2 : Rect S4x1024 := Rect.unit (s := S4x1024) ![2, 0] S1x1024.size inb_S4x1024_S1x1024_2_0
abbrev rW2_2 : Rect S4x1024x128 := Rect.unit (s := S4x1024x128) ![2, 0, 0] S1x1024x128.size inb_S4x1024x128_S1x1024x128_2_0_0
abbrev rB2_2 : Rect S4x128 := Rect.unit (s := S4x128) ![2, 0] S1x128.size inb_S4x128_S1x128_2_0
abbrev rO_2 : Rect S4x512x128 := Rect.unit (s := S4x512x128) ![2, 0, 0] S1x512x128.size inb_S4x512x128_S1x512x128_2_0_0
abbrev rW1_3 : Rect S4x512x1024 := Rect.unit (s := S4x512x1024) ![3, 0, 0] S1x512x1024.size inb_S4x512x1024_S1x512x1024_3_0_0
abbrev rB1_3 : Rect S4x1024 := Rect.unit (s := S4x1024) ![3, 0] S1x1024.size inb_S4x1024_S1x1024_3_0
abbrev rW2_3 : Rect S4x1024x128 := Rect.unit (s := S4x1024x128) ![3, 0, 0] S1x1024x128.size inb_S4x1024x128_S1x1024x128_3_0_0
abbrev rB2_3 : Rect S4x128 := Rect.unit (s := S4x128) ![3, 0] S1x128.size inb_S4x128_S1x128_3_0
abbrev rO_3 : Rect S4x512x128 := Rect.unit (s := S4x512x128) ![3, 0, 0] S1x512x128.size inb_S4x512x128_S1x512x128_3_0_0

/-! ## What the body leaves in the output window's buffer -/

/-- The output window's staging buffer after the body, from the eight input blocks: slab t is node type t's payload
    of the rows' block, slab t of both weight blocks and row t of both bias blocks. The pieces are listed last store
    first. -/
def out0_8 (x0 x1 x2 x3 : Vec F S512x512 .f32) (x4 : Vec F S4x512x1024 .bf16) (x5 : Vec F S4x1024 .f32)
    (x6 : Vec F S4x1024x128 .bf16) (x7 : Vec F S4x128 .f32) : Vec F S4x512x128 .f32 :=
  View.canon [⟨rO_3, k0_pay2 (View.ld x3 rX) (View.ld x4 rW1_3) (View.ld x5 rB1_3) (View.ld x6 rW2_3) (View.ld x7 rB2_3)⟩,
    ⟨rO_2, k0_pay1 (k0_pay7 (View.ld x7 rB2_2)) (k0_pay8 (View.ld x2 rX) (View.ld x4 rW1_2) (View.ld x5 rB1_2) (View.ld x6 rW2_2))⟩,
    ⟨rO_1, k0_pay6 (k0_pay4 (View.ld x1 rX) (View.ld x4 rW1_1)) (k0_pay5 (View.ld x5 rB1_1)) (View.ld x6 rW2_1) (View.ld x7 rB2_1)⟩,
    ⟨rO_0, k0_pay3 (View.ld x0 rX) (View.ld x4 rW1_0) (View.ld x5 rB1_0) (View.ld x6 rW2_0) (View.ld x7 rB2_0)⟩]

/-- The four slabs tile the buffer, so the stores cover it. -/
theorem cover0_8 (p0 p1 p2 p3 : Vec F S1x512x128 .f32) (y : S4x512x128.Idx) :
    ∃ pc ∈ ([⟨rO_3, p0⟩, ⟨rO_2, p1⟩, ⟨rO_1, p2⟩, ⟨rO_0, p3⟩] : List (View.Piece (Elt F) S4x512x128 .f32)), y ∈ pc.1.set :=
  View.cover_of_tiled [⟨rO_3, p0⟩, ⟨rO_2, p1⟩, ⟨rO_1, p2⟩, ⟨rO_0, p3⟩] S1x512x128.size (by rfl) y

/-! ## The pipeline's proof data -/

/-- The proof data of the pipeline on core c: the arrays as the region finds them; after the body at point t each
    input's buffer at its block and the output's at out0_8 of the input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t
    = out0_8 (iblk m c 0 t) (iblk m c 1 t) (iblk m c 2 t) (iblk m c 3 t) (iblk m c 4 t) (iblk m c 5 t) (iblk m c 6 t) (iblk m c 7 t) := by
  dsimp only [dats]

end Cert.KernelIdeal.Hand

end
-- ==== Proof.FrameBodyI.lean ====
/-
  The body's triple. On whole staging memrefs, the eight inputs' at read contents and the output's at anything, the
  kernel body runs to a continuation that holds the inputs' as they were and the output's at out0_8 of the inputs:
  node type by node type it loads the rows' block, one slab of each weight block and one row of each bias block,
  reads (and never uses) the output slab it is about to overwrite, and stores the payload into that slab. What the
  output buffer held before is overwritten everywhere, because the four slabs cover it.
-/
import proofs.«117456_j13099650253498_1_alg».proof.Proof.FrameDataI

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem sound_kernel (c : Dev nD) (E : Set ℕ) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S4x512x1024 .bf16) (harg5 : arg5.IsWhole) (arg6 : Memref sig .tc .vmem S4x1024 .f32) (harg6 : arg6.IsWhole) (arg7 : Memref sig .tc .vmem S4x1024x128 .bf16) (harg7 : arg7.IsWhole) (arg8 : Memref sig .tc .vmem S4x128 .f32) (harg8 : arg8.IsWhole) (arg9 : Memref sig .tc .vmem S4x512x128 .f32) (harg9 : arg9.IsWhole)
    (x0 : Vec F S512x512 .f32) (x1 : Vec F S512x512 .f32) (x2 : Vec F S512x512 .f32) (x3 : Vec F S512x512 .f32) (x4 : Vec F S4x512x1024 .bf16) (x5 : Vec F S4x1024 .f32) (x6 : Vec F S4x1024x128 .bf16) (x7 : Vec F S4x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9) K := by
  simp only [cc0__kernel_eq_skeleton]; unfold cc0__kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover0_8 _ _ _ _)

end Cert.KernelIdeal.Hand

end
-- ==== Proof.FrameRunI.lean ====
/-
  The run of the idealized kernel's @main and its frame. The host lines before the region write fresh result buffers
  only, so every argument array reaches the region as launched; at every grid point each input window's staging buffer
  holds that window's block (fetched there, or left in place by the point before when the block index has not moved:
  the weight and bias windows are fetched once); the body's triple then gives the pipeline's obligation at every
  point, and the library's launch theorem the run: it terminates, nothing faults, every array a window stages ends at
  what the proof data computes and every other buffer as the region found it.
-/
import proofs.«117456_j13099650253498_1_alg».proof.Proof.FrameBodyI

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor

/-- @main is the host lines, stretch by stretch, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (hostPrefix (F := F))
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host line before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## Each input window's buffer holds its block at every point -/

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' memrefs hold their blocks, so the body's triple applies; the invariant and the
    core's owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the run terminates, nothing faults, and every argument array ends as launched: an argument a window
    stages is an input window's array, which the pipeline only reads; any other is a buffer the region does not touch;
    and no host line before the region writes an argument. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 5).trans (((dats m 0 c).arrAt_in 5 rfl _).trans ((A_eq m c 5).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) (run_main m ρ)

/-- The same run with the result array named: after the run it holds what the proof data computes for the output
    window, the blocks the grid points wrote back. -/
theorem run_named : θ_run defs (onTc (τ := τ) (main (F := F))) ⟨m, fun _ => 0, ρ⟩ (fun r => ∀ c : Dev nD,
      r.2.mem ((c.tc : Thread nD τ).loc main_v20) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c).1 8, ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 5).trans (((dats m 0 c).arrAt_in 5 rfl _).trans ((A_eq m c 5).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) (run_main m ρ)

end Cert.KernelIdeal.Hand

end
-- ==== Proof.Spec.lean ====
/-
  The function both programs compute, index by index, on the extended reals.

  Four node types t, each with its own rows x_t : [16384, 512], a first layer W1[t] : [512, 1024], b1[t] : [1024]
  and a head W2_t : [1024, c_t], b2_t : [c_t] of its own width c_t (128, 96, 64, 32). The result is
  [4, 16384, 128]: slab t, row n, column j holds

      (∑ k, max ((∑ i, x_t[n, i] · W1[t, i, k]) + b1[t, k]) 0 · W2p_t[k, j]) + b2p_t[j]

  where W2p_t, b2p_t are the head's weights continued by zero to width 128. In a column j ≥ c_t every product is
  h · 0 = 0 on the extended reals (the convention ⊤ · 0 = 0 included), the sum of zeros is zero and 0 + 0 = 0:
  the continued form is a zero there, which is what padding the narrow result with zeros gives (head_padW_of_ge).
-/
import Idealize.ShloMosaic.PureOps.Ideal
import Idealize.ShloMosaic.Lib.ValueIdx

noncomputable section

namespace Cert.TypedHeads

open Idealize.ShloMosaic Idealize.ShloMosaic.ValueIdx

/-- A head's weight matrix of width c continued by zero to width 128. -/
def padW {c : Nat} (W : (⟨2, ![1024, c]⟩ : Shape).Idx → EReal) (k : Fin 1024) (j : Fin 128) : EReal :=
  if h : j.val < c then W (ix2 k ⟨j.val, h⟩) else 0

/-- A head's bias of width c continued by zero to width 128. -/
def padB {c : Nat} (b : (⟨1, ![c]⟩ : Shape).Idx → EReal) (j : Fin 128) : EReal :=
  if h : j.val < c then b (ix1 ⟨j.val, h⟩) else 0

theorem padW_of_lt {c : Nat} (W : (⟨2, ![1024, c]⟩ : Shape).Idx → EReal) (k : Fin 1024) (j : Fin 128) (h : j.val < c) :
    padW W k j = W (ix2 k ⟨j.val, h⟩) := dif_pos h

theorem padW_of_ge {c : Nat} (W : (⟨2, ![1024, c]⟩ : Shape).Idx → EReal) (k : Fin 1024) (j : Fin 128) (h : ¬ j.val < c) :
    padW W k j = 0 := dif_neg h

theorem padB_of_lt {c : Nat} (b : (⟨1, ![c]⟩ : Shape).Idx → EReal) (j : Fin 128) (h : j.val < c) :
    padB b j = b (ix1 ⟨j.val, h⟩) := dif_pos h

theorem padB_of_ge {c : Nat} (b : (⟨1, ![c]⟩ : Shape).Idx → EReal) (j : Fin 128) (h : ¬ j.val < c) :
    padB b j = 0 := dif_neg h

/-- The hidden activation of row n of node type t: the first layer's affine map, then the maximum with 0. -/
def hidden (X : Fin 4 → (⟨2, ![16384, 512]⟩ : Shape).Idx → EReal) (W1 : (⟨3, ![4, 512, 1024]⟩ : Shape).Idx → EReal)
    (b1 : (⟨2, ![4, 1024]⟩ : Shape).Idx → EReal) (t : Fin 4) (n : Fin 16384) (k : Fin 1024) : EReal :=
  max ((∑ i : Fin 512, X t (ix2 n i) * W1 (ix3 t i k)) + b1 (ix2 t k)) 0

/-- One head applied to a hidden row: the affine map with weights Wp and bias bp, both of width 128. -/
def head (h : Fin 1024 → EReal) (Wp : Fin 1024 → Fin 128 → EReal) (bp : Fin 128 → EReal) (j : Fin 128) : EReal :=
  (∑ k : Fin 1024, h k * Wp k j) + bp j

/-- In a column past the head's own width the continued head is zero, whatever the hidden row holds. -/
theorem head_padW_of_ge {c : Nat} (h : Fin 1024 → EReal) (W : (⟨2, ![1024, c]⟩ : Shape).Idx → EReal)
    (b : (⟨1, ![c]⟩ : Shape).Idx → EReal) (j : Fin 128) (hj : ¬ j.val < c) :
    head h (padW W) (padB b) j = 0 := by
  unfold head
  rw [padB_of_ge b j hj, add_zero]
  exact Finset.sum_eq_zero fun k _ => by rw [padW_of_ge W k j hj, mul_zero]

/-- In a column inside the head's own width the continued head is the head. -/
theorem head_padW_of_lt {c : Nat} (h : Fin 1024 → EReal) (W : (⟨2, ![1024, c]⟩ : Shape).Idx → EReal)
    (b : (⟨1, ![c]⟩ : Shape).Idx → EReal) (j : Fin 128) (hj : j.val < c) :
    head h (padW W) (padB b) j = (∑ k : Fin 1024, h k * W (ix2 k ⟨j.val, hj⟩)) + b (ix1 ⟨j.val, hj⟩) := by
  unfold head
  rw [padB_of_lt b j hj]
  exact congrArg (· + _) (Finset.sum_congr rfl fun k _ => by rw [padW_of_lt W k j hj])

/-- The whole result: slab t is head t applied to the hidden rows of node type t. -/
def G (x0 x1 x2 x3 : (⟨2, ![16384, 512]⟩ : Shape).Idx → EReal) (W1 : (⟨3, ![4, 512, 1024]⟩ : Shape).Idx → EReal)
    (b1 : (⟨2, ![4, 1024]⟩ : Shape).Idx → EReal)
    (W2_0 : (⟨2, ![1024, 128]⟩ : Shape).Idx → EReal) (b2_0 : (⟨1, ![128]⟩ : Shape).Idx → EReal)
    (W2_1 : (⟨2, ![1024, 96]⟩ : Shape).Idx → EReal) (b2_1 : (⟨1, ![96]⟩ : Shape).Idx → EReal)
    (W2_2 : (⟨2, ![1024, 64]⟩ : Shape).Idx → EReal) (b2_2 : (⟨1, ![64]⟩ : Shape).Idx → EReal)
    (W2_3 : (⟨2, ![1024, 32]⟩ : Shape).Idx → EReal) (b2_3 : (⟨1, ![32]⟩ : Shape).Idx → EReal) :
    (⟨3, ![4, 16384, 128]⟩ : Shape).Idx → EReal := fun i =>
  head (hidden ![x0, x1, x2, x3] W1 b1 (i 0) (i 1))
    (![padW W2_0, padW W2_1, padW W2_2, padW W2_3] (i 0)) (![padB b2_0, padB b2_1, padB b2_2, padB b2_3] (i 0)) (i 2)

theorem G_ix3 (x0 x1 x2 x3 : (⟨2, ![16384, 512]⟩ : Shape).Idx → EReal) (W1 : (⟨3, ![4, 512, 1024]⟩ : Shape).Idx → EReal)
    (b1 : (⟨2, ![4, 1024]⟩ : Shape).Idx → EReal)
    (W2_0 : (⟨2, ![1024, 128]⟩ : Shape).Idx → EReal) (b2_0 : (⟨1, ![128]⟩ : Shape).Idx → EReal)
    (W2_1 : (⟨2, ![1024, 96]⟩ : Shape).Idx → EReal) (b2_1 : (⟨1, ![96]⟩ : Shape).Idx → EReal)
    (W2_2 : (⟨2, ![1024, 64]⟩ : Shape).Idx → EReal) (b2_2 : (⟨1, ![64]⟩ : Shape).Idx → EReal)
    (W2_3 : (⟨2, ![1024, 32]⟩ : Shape).Idx → EReal) (b2_3 : (⟨1, ![32]⟩ : Shape).Idx → EReal)
    (t : Fin 4) (n : Fin 16384) (j : Fin 128) :
    G x0 x1 x2 x3 W1 b1 W2_0 b2_0 W2_1 b2_1 W2_2 b2_2 W2_3 b2_3 (ix3 t n j)
      = head (hidden ![x0, x1, x2, x3] W1 b1 t n)
          (![padW W2_0, padW W2_1, padW W2_2, padW W2_3] t) (![padB b2_0, padB b2_1, padB b2_2, padB b2_3] t) j := rfl

end Cert.TypedHeads

end
-- ==== Proof.LibPadStack.lean ====
/-
  Two host layout operations read at an index, for any extents.

  A pad that only adds columns (or entries) at the high end, with no low padding and no interior padding, read at an
  index: inside the operand's width it is the operand there, past it the padding value. A concatenation along axis 0
  of four pieces whose extent on that axis is 1 (a stack of four), read at an index: the piece its leading coordinate
  names, at leading coordinate 0 and the same remaining coordinates.
-/
import Idealize.ShloMosaic.Lib.KernelVsHost
import Idealize.ShloMosaic.Lib.Pipeline.Value
import Idealize.ShloMosaic.Lib.ValueIdx

noncomputable section

namespace Cert.LibPadStack

open Idealize.ShloMosaic Idealize.ShloMosaic.ValueIdx

variable {α : Type}

/-- A pad of a vector of c entries to w entries at the high end only, read at entry q: the operand's entry q when
    q < c, else the padding value. -/
theorem pad_high1_apply {c w hi : Nat} (x : (⟨1, ![c]⟩ : Shape).Idx → α) {u : Shape} (v : u.Idx → α)
    (h : (⟨1, ![c]⟩ : Shape).Pads ![0] ![hi] ![0] ⟨1, ![w]⟩) (hu : 0 < u.numel) (q : Fin w) :
    pad ⟨1, ![w]⟩ ![0] ![hi] ![0] x v h hu (ix1 q)
      = if hq : q.val < c then x (ix1 ⟨q.val, hq⟩) else v (Shape.Idx.first hu) := by
  by_cases hq : q.val < c
  · rw [dif_pos hq]
    exact pad_apply_of_inside _ _ _ x v h hu (ix1 q) (ix1 ⟨q.val, hq⟩) (fun a => match a with
      | ⟨0, _⟩ => by show q.val = 0 + q.val * (0 + 1); omega)
  · rw [dif_neg hq]
    exact pad_apply_of_not_inside _ _ _ x v h hu (ix1 q) (0 : Fin 1) (by
      show ¬(0 ≤ q.val ∧ (q.val - 0) % 1 = 0 ∧ (q.val - 0) / 1 < c); omega)

/-- A pad of an r by c matrix to r by w at the high end of the columns only, read at (p, q): the operand's entry
    (p, q) when q < c, else the padding value. -/
theorem pad_high2_apply {r c w hi : Nat} (x : (⟨2, ![r, c]⟩ : Shape).Idx → α) {u : Shape} (v : u.Idx → α)
    (h : (⟨2, ![r, c]⟩ : Shape).Pads ![0, 0] ![0, hi] ![0, 0] ⟨2, ![r, w]⟩) (hu : 0 < u.numel) (p : Fin r) (q : Fin w) :
    pad ⟨2, ![r, w]⟩ ![0, 0] ![0, hi] ![0, 0] x v h hu (ix2 p q)
      = if hq : q.val < c then x (ix2 p ⟨q.val, hq⟩) else v (Shape.Idx.first hu) := by
  by_cases hq : q.val < c
  · rw [dif_pos hq]
    exact pad_apply_of_inside _ _ _ x v h hu (ix2 p q) (ix2 p ⟨q.val, hq⟩) (fun a => match a with
      | ⟨0, _⟩ => by show p.val = 0 + p.val * (0 + 1); omega
      | ⟨1, _⟩ => by show q.val = 0 + q.val * (0 + 1); omega)
  · rw [dif_neg hq]
    exact pad_apply_of_not_inside _ _ _ x v h hu (ix2 p q) (1 : Fin 2) (by
      show ¬(0 ≤ q.val ∧ (q.val - 0) % 1 = 0 ∧ (q.val - 0) / 1 < c); omega)

/-- A stack of four rows (pieces of shape 1 by w, joined along axis 0) read at (t, q): piece t at (0, q). -/
theorem stack4_rows_apply {w : Nat} (u0 u1 u2 u3 : (⟨2, ![1, w]⟩ : Shape).Idx → α)
    (h : Shape.Concatenates ([(⟨⟨2, ![1, w]⟩, u0⟩ : (s : Shape) × (s.Idx → α)), ⟨⟨2, ![1, w]⟩, u1⟩, ⟨⟨2, ![1, w]⟩, u2⟩, ⟨⟨2, ![1, w]⟩, u3⟩].map (·.1)) ⟨2, ![4, w]⟩ 0)
    (t : Fin 4) (q : Fin w) :
    concatenate ⟨2, ![4, w]⟩ 0 [⟨⟨2, ![1, w]⟩, u0⟩, ⟨⟨2, ![1, w]⟩, u1⟩, ⟨⟨2, ![1, w]⟩, u2⟩, ⟨⟨2, ![1, w]⟩, u3⟩] h (ix2 t q)
      = ![u0, u1, u2, u3] t (ix2 (0 : Fin 1) q) := by
  have hi : ∀ (t : Fin 4) (b : Fin 2), b.cast (rfl : (⟨2, ![1, w]⟩ : Shape).rank = (⟨2, ![4, w]⟩ : Shape).rank) ≠ 0 →
      ((ix2 (0 : Fin 1) q : (⟨2, ![1, w]⟩ : Shape).Idx) b).val = ((ix2 t q : (⟨2, ![4, w]⟩ : Shape).Idx) (b.cast rfl)).val :=
    fun t b hb => match b with
      | ⟨0, _⟩ => absurd rfl hb
      | ⟨1, _⟩ => rfl
  match t with
  | ⟨0, _⟩ => exact concatenate_apply_piece 0 _ h _ 0 (by simp) _ u0 rfl rfl 0 rfl (ix2 0 q) (hi _) rfl
  | ⟨1, _⟩ => exact concatenate_apply_piece 0 _ h _ 1 (by simp) _ u1 rfl rfl 1 rfl (ix2 0 q) (hi _) rfl
  | ⟨2, _⟩ => exact concatenate_apply_piece 0 _ h _ 2 (by simp) _ u2 rfl rfl 2 rfl (ix2 0 q) (hi _) rfl
  | ⟨3, _⟩ => exact concatenate_apply_piece 0 _ h _ 3 (by simp) _ u3 rfl rfl 3 rfl (ix2 0 q) (hi _) rfl

/-- A stack of four slabs (pieces of shape 1 by a by b, joined along axis 0) read at (t, p, q): piece t at (0, p, q). -/
theorem stack4_slabs_apply {a b : Nat} (u0 u1 u2 u3 : (⟨3, ![1, a, b]⟩ : Shape).Idx → α)
    (h : Shape.Concatenates ([(⟨⟨3, ![1, a, b]⟩, u0⟩ : (s : Shape) × (s.Idx → α)), ⟨⟨3, ![1, a, b]⟩, u1⟩, ⟨⟨3, ![1, a, b]⟩, u2⟩, ⟨⟨3, ![1, a, b]⟩, u3⟩].map (·.1)) ⟨3, ![4, a, b]⟩ 0)
    (t : Fin 4) (p : Fin a) (q : Fin b) :
    concatenate ⟨3, ![4, a, b]⟩ 0 [⟨⟨3, ![1, a, b]⟩, u0⟩, ⟨⟨3, ![1, a, b]⟩, u1⟩, ⟨⟨3, ![1, a, b]⟩, u2⟩, ⟨⟨3, ![1, a, b]⟩, u3⟩] h (ix3 t p q)
      = ![u0, u1, u2, u3] t (ix3 (0 : Fin 1) p q) := by
  have hi : ∀ (t : Fin 4) (d : Fin 3), d.cast (rfl : (⟨3, ![1, a, b]⟩ : Shape).rank = (⟨3, ![4, a, b]⟩ : Shape).rank) ≠ 0 →
      ((ix3 (0 : Fin 1) p q : (⟨3, ![1, a, b]⟩ : Shape).Idx) d).val = ((ix3 t p q : (⟨3, ![4, a, b]⟩ : Shape).Idx) (d.cast rfl)).val :=
    fun t d hd => match d with
      | ⟨0, _⟩ => absurd rfl hd
      | ⟨1, _⟩ => rfl
      | ⟨2, _⟩ => rfl
  match t with
  | ⟨0, _⟩ => exact concatenate_apply_piece 0 _ h _ 0 (by simp) _ u0 rfl rfl 0 rfl (ix3 0 p q) (hi _) rfl
  | ⟨1, _⟩ => exact concatenate_apply_piece 0 _ h _ 1 (by simp) _ u1 rfl rfl 1 rfl (ix3 0 p q) (hi _) rfl
  | ⟨2, _⟩ => exact concatenate_apply_piece 0 _ h _ 2 (by simp) _ u2 rfl rfl 2 rfl (ix3 0 p q) (hi _) rfl
  | ⟨3, _⟩ => exact concatenate_apply_piece 0 _ h _ 3 (by simp) _ u3 rfl rfl 3 rfl (ix3 0 p q) (hi _) rfl

end Cert.LibPadStack

end
-- ==== Proof.HostPrefix.lean ====
/-
  What the region finds in the three window arrays the host lines compute, at the ideal instance. The first-layer
  weights go through a change of float format only, which is the identity on the extended reals. The head weights
  and the head biases are each head's array padded with the value 0 (the integer constant 0 converted to a float)
  to width 128, laid as a slab of its own and the four slabs stacked: entry (t, k, j) of the stacked weights is
  head t's weight (k, j) continued by zero, entry (t, j) of the stacked biases head t's bias j continued by zero.
-/
import proofs.«117456_j13099650253498_1_alg».proof.Proof.FrameDataI
import proofs.«117456_j13099650253498_1_alg».proof.Proof.Spec
import proofs.«117456_j13099650253498_1_alg».proof.Proof.LibPadStack
import Idealize.ShloMosaic.Lib.StableHlo.Run
import Idealize.ShloMosaic.Lib.Pipeline.Value
import Idealize.ShloMosaic.Lib.KernelVsHost

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

open Idealize.ShloMosaic.StableHlo Cert.TypedHeads Cert.LibPadStack

variable (m : (ℓ : Loc nD τ sig) → Buf (Elt Ideal) ℓ)

/-- Argument 0 as launched, on core c. -/
abbrev A0 (c : Dev nD) : FVec Ideal S16384x512 .f32 := m ((c : Thread nD τ).loc main_arg0)
/-- Argument 1 as launched, on core c. -/
abbrev A1 (c : Dev nD) : FVec Ideal S16384x512 .f32 := m ((c : Thread nD τ).loc main_arg1)
/-- Argument 2 as launched, on core c. -/
abbrev A2 (c : Dev nD) : FVec Ideal S16384x512 .f32 := m ((c : Thread nD τ).loc main_arg2)
/-- Argument 3 as launched, on core c. -/
abbrev A3 (c : Dev nD) : FVec Ideal S16384x512 .f32 := m ((c : Thread nD τ).loc main_arg3)
/-- Argument 5 as launched, on core c. -/
abbrev A5 (c : Dev nD) : FVec Ideal S4x512x1024 .f32 := m ((c : Thread nD τ).loc main_arg5)
/-- Argument 6 as launched, on core c. -/
abbrev A6 (c : Dev nD) : FVec Ideal S4x1024 .f32 := m ((c : Thread nD τ).loc main_arg6)
/-- Argument 7 as launched, on core c. -/
abbrev A7 (c : Dev nD) : FVec Ideal S1024x128 .f32 := m ((c : Thread nD τ).loc main_arg7)
/-- Argument 8 as launched, on core c. -/
abbrev A8 (c : Dev nD) : FVec Ideal S128 .f32 := m ((c : Thread nD τ).loc main_arg8)
/-- Argument 9 as launched, on core c. -/
abbrev A9 (c : Dev nD) : FVec Ideal S1024x96 .f32 := m ((c : Thread nD τ).loc main_arg9)
/-- Argument 10 as launched, on core c. -/
abbrev A10 (c : Dev nD) : FVec Ideal S96 .f32 := m ((c : Thread nD τ).loc main_arg10)
/-- Argument 11 as launched, on core c. -/
abbrev A11 (c : Dev nD) : FVec Ideal S1024x64 .f32 := m ((c : Thread nD τ).loc main_arg11)
/-- Argument 12 as launched, on core c. -/
abbrev A12 (c : Dev nD) : FVec Ideal S64 .f32 := m ((c : Thread nD τ).loc main_arg12)
/-- Argument 13 as launched, on core c. -/
abbrev A13 (c : Dev nD) : FVec Ideal S1024x32 .f32 := m ((c : Thread nD τ).loc main_arg13)
/-- Argument 14 as launched, on core c. -/
abbrev A14 (c : Dev nD) : FVec Ideal S32 .f32 := m ((c : Thread nD τ).loc main_arg14)
/-- The padding value: the integer constant 0 converted to a float. -/
abbrev padv : FVec Ideal S_ .f32 := sitofp (F := Ideal) .f32 (constantI S_ 32 0#32)

/-- The padding value is the extended real 0. -/
theorem padv_zero : padv (Shape.Idx.first h_S_) = 0 := by
  show (((0#32 : BitVec 32).toInt : ℝ) : EReal) = 0
  simp

/-- The first-layer weight window's array: argument 5 through a change of float format. -/
theorem V_w1 (c : Dev nD) : (V m c main_v0 : FVec Ideal S4x512x1024 .bf16) = truncf .bf16 (A5 m c) bitsLt_bf16_f32 := by
  dsimp only [V, hostPrefix]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp <;> rfl

/-- The head-bias window's array: the four padded biases, stacked. -/
theorem V_b2 (c : Dev nD) : (V m c main_v19 : FVec Ideal S4x128 .f32) = concatenate S4x128 0 [⟨S1x128, broadcastInDim S1x128 ![1] bcast_S128_S1x128_1 (pad S128 ![0] ![0] ![0] (A8 m c) padv pads_S128_S128_000 h_S_)⟩, ⟨S1x128, broadcastInDim S1x128 ![1] bcast_S128_S1x128_1 (pad S128 ![0] ![32] ![0] (A10 m c) padv pads_S96_S128_0320 h_S_)⟩, ⟨S1x128, broadcastInDim S1x128 ![1] bcast_S128_S1x128_1 (pad S128 ![0] ![64] ![0] (A12 m c) padv pads_S64_S128_0640 h_S_)⟩, ⟨S1x128, broadcastInDim S1x128 ![1] bcast_S128_S1x128_1 (pad S128 ![0] ![96] ![0] (A14 m c) padv pads_S32_S128_0960 h_S_)⟩] concatenates_S1x128_S1x128_S1x128_S1x128_S4x128_d0 := by
  dsimp only [V, hostPrefix]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp <;> rfl

/-- The head-weight window's array: the four padded weight matrices, stacked (the change of float format after it is the identity). -/
theorem V_w2 (c : Dev nD) : (V m c main_v10 : FVec Ideal S4x1024x128 .bf16) = (concatenate S4x1024x128 0 [⟨S1x1024x128, broadcastInDim S1x1024x128 ![1, 2] bcast_S1024x128_S1x1024x128_1_2 (pad S1024x128 ![0, 0] ![0, 0] ![0, 0] (A7 m c) padv pads_S1024x128_S1024x128_000_000 h_S_)⟩, ⟨S1x1024x128, broadcastInDim S1x1024x128 ![1, 2] bcast_S1024x128_S1x1024x128_1_2 (pad S1024x128 ![0, 0] ![0, 32] ![0, 0] (A9 m c) padv pads_S1024x96_S1024x128_000_0320 h_S_)⟩, ⟨S1x1024x128, broadcastInDim S1x1024x128 ![1, 2] bcast_S1024x128_S1x1024x128_1_2 (pad S1024x128 ![0, 0] ![0, 64] ![0, 0] (A11 m c) padv pads_S1024x64_S1024x128_000_0640 h_S_)⟩, ⟨S1x1024x128, broadcastInDim S1x1024x128 ![1, 2] bcast_S1024x128_S1x1024x128_1_2 (pad S1024x128 ![0, 0] ![0, 96] ![0, 0] (A13 m c) padv pads_S1024x32_S1024x128_000_0960 h_S_)⟩] concatenates_S1x1024x128_S1x1024x128_S1x1024x128_S1x1024x128_S4x1024x128_d0 : FVec Ideal S4x1024x128 .f32) := by
  dsimp only [V, hostPrefix]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp <;> rfl

/-- Entry by entry the first-layer weight window's array is argument 5. -/
theorem V_w1_apply (c : Dev nD) (i : S4x512x1024.Idx) : (V m c main_v0 : FVec Ideal S4x512x1024 .bf16) i = A5 m c i := by
  rw [V_w1]; rfl

/-- One padded weight slab read at (0, k, j). -/
theorem slabW_apply {w hi : Nat} (x : FVec Ideal ⟨2, ![1024, w]⟩ .f32)
    (h : (⟨2, ![1024, w]⟩ : Shape).Pads ![0, 0] ![0, hi] ![0, 0] S1024x128) (k : Fin 1024) (j : Fin 128) :
    broadcastInDim S1x1024x128 ![1, 2] bcast_S1024x128_S1x1024x128_1_2 (pad S1024x128 ![0, 0] ![0, hi] ![0, 0] x padv h h_S_) (ix3 (0 : Fin 1) k j)
      = padW x k j := by
  rw [broadcastInDim_apply _ bcast_S1024x128_S1x1024x128_1_2 _ (ix3 (0 : Fin 1) k j) (ix2 k j) (fun a => match a with
      | ⟨0, _⟩ => by show k.val = if (1024 : Nat) = 1 then 0 else k.val; rw [if_neg (by decide)]
      | ⟨1, _⟩ => by show j.val = if (128 : Nat) = 1 then 0 else j.val; rw [if_neg (by decide)])]
  rw [pad_high2_apply]
  unfold padW
  exact dite_congr rfl (fun _ => rfl) (fun _ => padv_zero)

/-- One padded bias row read at (0, j). -/
theorem rowB_apply {w hi : Nat} (x : FVec Ideal ⟨1, ![w]⟩ .f32)
    (h : (⟨1, ![w]⟩ : Shape).Pads ![0] ![hi] ![0] S128) (j : Fin 128) :
    broadcastInDim S1x128 ![1] bcast_S128_S1x128_1 (pad S128 ![0] ![hi] ![0] x padv h h_S_) (ix2 (0 : Fin 1) j)
      = padB x j := by
  rw [broadcastInDim_apply _ bcast_S128_S1x128_1 _ (ix2 (0 : Fin 1) j) (ix1 j) (fun a => match a with
      | ⟨0, _⟩ => by show j.val = if (128 : Nat) = 1 then 0 else j.val; rw [if_neg (by decide)])]
  rw [pad_high1_apply]
  unfold padB
  exact dite_congr rfl (fun _ => rfl) (fun _ => padv_zero)

/-- Entry (t, k, j) of the head-weight window's array is head t's weight (k, j), continued by zero past its width. -/
theorem V_w2_apply (c : Dev nD) (t : Fin 4) (k : Fin 1024) (j : Fin 128) :
    (V m c main_v10 : FVec Ideal S4x1024x128 .bf16) (ix3 t k j)
      = ![padW (A7 m c), padW (A9 m c), padW (A11 m c), padW (A13 m c)] t k j := by
  rw [V_w2]
  refine (stack4_slabs_apply _ _ _ _ concatenates_S1x1024x128_S1x1024x128_S1x1024x128_S1x1024x128_S4x1024x128_d0 t k j).trans ?_
  match t with
  | ⟨0, _⟩ => exact slabW_apply (hi := 0) (A7 m c) pads_S1024x128_S1024x128_000_000 k j
  | ⟨1, _⟩ => exact slabW_apply (hi := 32) (A9 m c) pads_S1024x96_S1024x128_000_0320 k j
  | ⟨2, _⟩ => exact slabW_apply (hi := 64) (A11 m c) pads_S1024x64_S1024x128_000_0640 k j
  | ⟨3, _⟩ => exact slabW_apply (hi := 96) (A13 m c) pads_S1024x32_S1024x128_000_0960 k j

/-- Entry (t, j) of the head-bias window's array is head t's bias j, continued by zero past its width. -/
theorem V_b2_apply (c : Dev nD) (t : Fin 4) (j : Fin 128) :
    (V m c main_v19 : FVec Ideal S4x128 .f32) (ix2 t j)
      = ![padB (A8 m c), padB (A10 m c), padB (A12 m c), padB (A14 m c)] t j := by
  rw [V_b2]
  refine (stack4_rows_apply _ _ _ _ concatenates_S1x128_S1x128_S1x128_S1x128_S4x128_d0 t j).trans ?_
  match t with
  | ⟨0, _⟩ => exact rowB_apply (hi := 0) (A8 m c) pads_S128_S128_000 j
  | ⟨1, _⟩ => exact rowB_apply (hi := 32) (A10 m c) pads_S96_S128_0320 j
  | ⟨2, _⟩ => exact rowB_apply (hi := 64) (A12 m c) pads_S64_S128_0640 j
  | ⟨3, _⟩ => exact rowB_apply (hi := 96) (A14 m c) pads_S32_S128_0960 j

end Cert.KernelIdeal.Hand

end
-- ==== Proof.KernelPayload.lean ====
/-
  The arithmetic of the kernel's body, index by index, on the extended reals.

  For each node type t the body forms h = max (x_t · W1[t] + b1[t]) 0 and stores h · W2[t] + b2[t] as slab t of the
  [4, 512, 128] output block. Here the output block after the body, read at (t, r, j), is shown to be

      (∑ k, max ((∑ i, x_t[r, i] · W1[t, i, k]) + b1[t, k]) 0 · W2[t, k, j]) + b2[t, j].

  The road: a product of two matrices into a zero accumulator, read at an index, is the sum over the contracted axis
  of the products of the operands' entries; a bias row cast to [1, n] and broadcast over the rows reads the bias at
  the column; the maximum, the sum and the conversions between float widths act entry by entry (the conversions are
  the identity on the extended reals); a load through a slab's rectangle reads the array at the slab's index; and of
  the four stores, the one whose rectangle holds the index decides what the block reads there.
-/
import proofs.«117456_j13099650253498_1_alg».proof.Proof.FrameDataI
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal.Gen
open Idealize.ShloMosaic Idealize.ShloMosaic.TcCoe Idealize.ShloMosaic.ValueIdx

/-! ## The product [512, 512] · [512, 1024] read at an index -/

theorem lhs_mmA_0 (i : S512x1024.Idx) (q : Cert.KernelIdeal.dot_S512x512_S512x1024_S512x1024_1_0_0_1_n_n.contr.Idx) :
    (Cert.KernelIdeal.dot_S512x512_S512x1024_S512x1024_1_0_0_1_n_n.lhsIdx i q 0).val = (i 0).val := by
  unfold DotDims.lhsIdx
  rw [dif_neg (show ¬(0 : Fin S512x512.rank) ∈ Cert.KernelIdeal.dot_S512x512_S512x1024_S512x1024_1_0_0_1_n_n.lhsBatch by decide), dif_pos (show (0 : Fin S512x512.rank) ∈ Cert.KernelIdeal.dot_S512x512_S512x1024_S512x1024_1_0_0_1_n_n.lhsNonContracting by decide)]
  rfl
theorem lhs_mmA_1 (i : S512x1024.Idx) (q : Cert.KernelIdeal.dot_S512x512_S512x1024_S512x1024_1_0_0_1_n_n.contr.Idx) :
    (Cert.KernelIdeal.dot_S512x512_S512x1024_S512x1024_1_0_0_1_n_n.lhsIdx i q 1).val = (q ⟨0, by decide⟩).val :=
  Cert.KernelIdeal.dot_S512x512_S512x1024_S512x1024_1_0_0_1_n_n.lhsIdx_val_of_single rfl i q
theorem rhs_mmA_0 (i : S512x1024.Idx) (q : Cert.KernelIdeal.dot_S512x512_S512x1024_S512x1024_1_0_0_1_n_n.contr.Idx) :
    (Cert.KernelIdeal.dot_S512x512_S512x1024_S512x1024_1_0_0_1_n_n.rhsIdx i q 0).val = (q ⟨0, by decide⟩).val :=
  Cert.KernelIdeal.dot_S512x512_S512x1024_S512x1024_1_0_0_1_n_n.rhsIdx_val_of_single rfl i q
theorem rhs_mmA_1 (i : S512x1024.Idx) (q : Cert.KernelIdeal.dot_S512x512_S512x1024_S512x1024_1_0_0_1_n_n.contr.Idx) :
    (Cert.KernelIdeal.dot_S512x512_S512x1024_S512x1024_1_0_0_1_n_n.rhsIdx i q 1).val = (i 1).val := by
  unfold DotDims.rhsIdx
  rw [dif_neg (show ¬(1 : Fin S512x1024.rank) ∈ Cert.KernelIdeal.dot_S512x512_S512x1024_S512x1024_1_0_0_1_n_n.rhsBatch by decide), dif_pos (show (1 : Fin S512x1024.rank) ∈ Cert.KernelIdeal.dot_S512x512_S512x1024_S512x1024_1_0_0_1_n_n.rhsNonContracting by decide)]
  rfl

/-- The product into a zero accumulator, at (r, c): the sum over the contracted axis of the operands' products. -/
theorem mmA_apply (A : FVec Ideal S512x512 .bf16) (B : FVec Ideal S512x1024 .bf16) (r : Fin 512) (c : Fin 1024) :
    matmul (F := Ideal) Cert.KernelIdeal.dot_S512x512_S512x1024_S512x1024_1_0_0_1_n_n none A B (constant (F := Ideal) S512x1024 .f32 0x00000000#32) (ix2 r c)
      = ∑ k : Fin 512, A (ix2 r k) * B (ix2 k c) := by
  simp only [matmul]
  rw [Ideal.matmul_constant_zero_apply, ← Equiv.sum_comp (ValueIdx.contrEquiv1 Cert.KernelIdeal.dot_S512x512_S512x1024_S512x1024_1_0_0_1_n_n 512 rfl rfl).symm]
  refine Finset.sum_congr rfl fun k _ => ?_
  have hk := ValueIdx.contrEquiv1_symm_val Cert.KernelIdeal.dot_S512x512_S512x1024_S512x1024_1_0_0_1_n_n 512 rfl rfl k
  have el : Cert.KernelIdeal.dot_S512x512_S512x1024_S512x1024_1_0_0_1_n_n.lhsIdx (ix2 r c) ((ValueIdx.contrEquiv1 Cert.KernelIdeal.dot_S512x512_S512x1024_S512x1024_1_0_0_1_n_n 512 rfl rfl).symm k) = ix2 r k := funext fun a => Fin.ext (by
    match a with
    | ⟨0, _⟩ => exact lhs_mmA_0 _ _
    | ⟨1, _⟩ => exact (lhs_mmA_1 _ _).trans hk)
  have er : Cert.KernelIdeal.dot_S512x512_S512x1024_S512x1024_1_0_0_1_n_n.rhsIdx (ix2 r c) ((ValueIdx.contrEquiv1 Cert.KernelIdeal.dot_S512x512_S512x1024_S512x1024_1_0_0_1_n_n 512 rfl rfl).symm k) = ix2 k c := funext fun a => Fin.ext (by
    match a with
    | ⟨0, _⟩ => exact (rhs_mmA_0 _ _).trans hk
    | ⟨1, _⟩ => exact rhs_mmA_1 _ _)
  rw [el, er]

/-! ## The product [512, 1024] · [1024, 128] read at an index -/

theorem lhs_mmB_0 (i : S512x128.Idx) (q : Cert.KernelIdeal.dot_S512x1024_S1024x128_S512x128_1_0_0_1_n_n.contr.Idx) :
    (Cert.KernelIdeal.dot_S512x1024_S1024x128_S512x128_1_0_0_1_n_n.lhsIdx i q 0).val = (i 0).val := by
  unfold DotDims.lhsIdx
  rw [dif_neg (show ¬(0 : Fin S512x1024.rank) ∈ Cert.KernelIdeal.dot_S512x1024_S1024x128_S512x128_1_0_0_1_n_n.lhsBatch by decide), dif_pos (show (0 : Fin S512x1024.rank) ∈ Cert.KernelIdeal.dot_S512x1024_S1024x128_S512x128_1_0_0_1_n_n.lhsNonContracting by decide)]
  rfl
theorem lhs_mmB_1 (i : S512x128.Idx) (q : Cert.KernelIdeal.dot_S512x1024_S1024x128_S512x128_1_0_0_1_n_n.contr.Idx) :
    (Cert.KernelIdeal.dot_S512x1024_S1024x128_S512x128_1_0_0_1_n_n.lhsIdx i q 1).val = (q ⟨0, by decide⟩).val :=
  Cert.KernelIdeal.dot_S512x1024_S1024x128_S512x128_1_0_0_1_n_n.lhsIdx_val_of_single rfl i q
theorem rhs_mmB_0 (i : S512x128.Idx) (q : Cert.KernelIdeal.dot_S512x1024_S1024x128_S512x128_1_0_0_1_n_n.contr.Idx) :
    (Cert.KernelIdeal.dot_S512x1024_S1024x128_S512x128_1_0_0_1_n_n.rhsIdx i q 0).val = (q ⟨0, by decide⟩).val :=
  Cert.KernelIdeal.dot_S512x1024_S1024x128_S512x128_1_0_0_1_n_n.rhsIdx_val_of_single rfl i q
theorem rhs_mmB_1 (i : S512x128.Idx) (q : Cert.KernelIdeal.dot_S512x1024_S1024x128_S512x128_1_0_0_1_n_n.contr.Idx) :
    (Cert.KernelIdeal.dot_S512x1024_S1024x128_S512x128_1_0_0_1_n_n.rhsIdx i q 1).val = (i 1).val := by
  unfold DotDims.rhsIdx
  rw [dif_neg (show ¬(1 : Fin S1024x128.rank) ∈ Cert.KernelIdeal.dot_S512x1024_S1024x128_S512x128_1_0_0_1_n_n.rhsBatch by decide), dif_pos (show (1 : Fin S1024x128.rank) ∈ Cert.KernelIdeal.dot_S512x1024_S1024x128_S512x128_1_0_0_1_n_n.rhsNonContracting by decide)]
  rfl

/-- The product into a zero accumulator, at (r, c): the sum over the contracted axis of the operands' products. -/
theorem mmB_apply (A : FVec Ideal S512x1024 .bf16) (B : FVec Ideal S1024x128 .bf16) (r : Fin 512) (c : Fin 128) :
    matmul (F := Ideal) Cert.KernelIdeal.dot_S512x1024_S1024x128_S512x128_1_0_0_1_n_n none A B (constant (F := Ideal) S512x128 .f32 0x00000000#32) (ix2 r c)
      = ∑ k : Fin 1024, A (ix2 r k) * B (ix2 k c) := by
  simp only [matmul]
  rw [Ideal.matmul_constant_zero_apply, ← Equiv.sum_comp (ValueIdx.contrEquiv1 Cert.KernelIdeal.dot_S512x1024_S1024x128_S512x128_1_0_0_1_n_n 1024 rfl rfl).symm]
  refine Finset.sum_congr rfl fun k _ => ?_
  have hk := ValueIdx.contrEquiv1_symm_val Cert.KernelIdeal.dot_S512x1024_S1024x128_S512x128_1_0_0_1_n_n 1024 rfl rfl k
  have el : Cert.KernelIdeal.dot_S512x1024_S1024x128_S512x128_1_0_0_1_n_n.lhsIdx (ix2 r c) ((ValueIdx.contrEquiv1 Cert.KernelIdeal.dot_S512x1024_S1024x128_S512x128_1_0_0_1_n_n 1024 rfl rfl).symm k) = ix2 r k := funext fun a => Fin.ext (by
    match a with
    | ⟨0, _⟩ => exact lhs_mmB_0 _ _
    | ⟨1, _⟩ => exact (lhs_mmB_1 _ _).trans hk)
  have er : Cert.KernelIdeal.dot_S512x1024_S1024x128_S512x128_1_0_0_1_n_n.rhsIdx (ix2 r c) ((ValueIdx.contrEquiv1 Cert.KernelIdeal.dot_S512x1024_S1024x128_S512x128_1_0_0_1_n_n 1024 rfl rfl).symm k) = ix2 k c := funext fun a => Fin.ext (by
    match a with
    | ⟨0, _⟩ => exact (rhs_mmB_0 _ _).trans hk
    | ⟨1, _⟩ => exact rhs_mmB_1 _ _)
  rw [el, er]

/-! ## One node type's arithmetic -/

/-- What one node type's arithmetic leaves at row r, column j, from its rows X and its [1, …] slabs of the weights and
    biases: the first layer's affine map, the maximum with 0, the head's affine map. -/
def slabFun (X : Vec Ideal S512x512 .f32) (W1 : Vec Ideal S1x512x1024 .bf16) (B1 : Vec Ideal S1x1024 .f32)
    (W2 : Vec Ideal S1x1024x128 .bf16) (B2 : Vec Ideal S1x128 .f32) (r : Fin 512) (j : Fin 128) : EReal :=
  (∑ k : Fin 1024, max ((∑ i : Fin 512, X (ix2 r i) * W1 (ix3 (0 : Fin 1) i k)) + B1 (ix2 (0 : Fin 1) k)) 0 * W2 (ix3 (0 : Fin 1) k j))
    + B2 (ix2 (0 : Fin 1) j)

/-- Node type 0's stored value (one term from the five loads) is that function. -/
theorem k0_pay3_apply (X : Vec Ideal S512x512 .f32) (W1 : Vec Ideal S1x512x1024 .bf16) (B1 : Vec Ideal S1x1024 .f32)
    (W2 : Vec Ideal S1x1024x128 .bf16) (B2 : Vec Ideal S1x128 .f32) (u : Fin 1) (r : Fin 512) (j : Fin 128) :
    k0_pay3 (F := Ideal) X W1 B1 W2 B2 (ix3 u r j) = slabFun X W1 B1 W2 B2 r j := by
  unfold k0_pay3 slabFun
  simp only [shapeCast_ab_1ab_apply, addf_apply, mmB_apply, truncf_apply, maximumf_apply, mmA_apply, broadcast_apply,
    broadcastTo_1b_ab_apply, shapeCast_a_1a_apply, shapeCast_1a_a_apply, shapeCast_1ab_ab_apply, Scalar.ofBits, Ideal.ofBits_def, Ideal.ofBits_zero_f32]

/-- Node type 1's stored value (the first product and the bias row formed before the rest) is the same function. -/
theorem k0_pay6_apply (X : Vec Ideal S512x512 .f32) (W1 : Vec Ideal S1x512x1024 .bf16) (B1 : Vec Ideal S1x1024 .f32)
    (W2 : Vec Ideal S1x1024x128 .bf16) (B2 : Vec Ideal S1x128 .f32) (u : Fin 1) (r : Fin 512) (j : Fin 128) :
    k0_pay6 (F := Ideal) (k0_pay4 X W1) (k0_pay5 B1) W2 B2 (ix3 u r j) = slabFun X W1 B1 W2 B2 r j := by
  unfold k0_pay6 k0_pay4 k0_pay5 slabFun
  simp only [shapeCast_ab_1ab_apply, addf_apply, mmB_apply, truncf_apply, maximumf_apply, mmA_apply, broadcast_apply,
    broadcastTo_1b_ab_apply, shapeCast_a_1a_apply, shapeCast_1a_a_apply, shapeCast_1ab_ab_apply, Scalar.ofBits, Ideal.ofBits_def, Ideal.ofBits_zero_f32]

/-- Node type 2's stored value (the head's bias added after everything else) is the same function. -/
theorem k0_pay1_apply (X : Vec Ideal S512x512 .f32) (W1 : Vec Ideal S1x512x1024 .bf16) (B1 : Vec Ideal S1x1024 .f32)
    (W2 : Vec Ideal S1x1024x128 .bf16) (B2 : Vec Ideal S1x128 .f32) (u : Fin 1) (r : Fin 512) (j : Fin 128) :
    k0_pay1 (F := Ideal) (k0_pay7 B2) (k0_pay8 X W1 B1 W2) (ix3 u r j) = slabFun X W1 B1 W2 B2 r j := by
  unfold k0_pay1 k0_pay7 k0_pay8 slabFun
  simp only [shapeCast_ab_1ab_apply, addf_apply, mmB_apply, truncf_apply, maximumf_apply, mmA_apply, broadcast_apply,
    broadcastTo_1b_ab_apply, shapeCast_a_1a_apply, shapeCast_1a_a_apply, shapeCast_1ab_ab_apply, Scalar.ofBits, Ideal.ofBits_def, Ideal.ofBits_zero_f32]

/-- Node type 3's stored value (one term from the five loads) is the same function. -/
theorem k0_pay2_apply (X : Vec Ideal S512x512 .f32) (W1 : Vec Ideal S1x512x1024 .bf16) (B1 : Vec Ideal S1x1024 .f32)
    (W2 : Vec Ideal S1x1024x128 .bf16) (B2 : Vec Ideal S1x128 .f32) (u : Fin 1) (r : Fin 512) (j : Fin 128) :
    k0_pay2 (F := Ideal) X W1 B1 W2 B2 (ix3 u r j) = slabFun X W1 B1 W2 B2 r j := by
  unfold k0_pay2 slabFun
  simp only [shapeCast_ab_1ab_apply, addf_apply, mmB_apply, truncf_apply, maximumf_apply, mmA_apply, broadcast_apply,
    broadcastTo_1b_ab_apply, shapeCast_a_1a_apply, shapeCast_1a_a_apply, shapeCast_1ab_ab_apply, Scalar.ofBits, Ideal.ofBits_def, Ideal.ofBits_zero_f32]

/-! ## Where a slab's rectangle puts an index -/

/-- The whole-matrix rectangle puts (r, i) at (r, i). -/
theorem idx_whole2 {a b : Nat} (inb : ∀ ax, (![0, 0] : Fin 2 → Nat) ax + (⟨2, ![a, b]⟩ : Shape).size ax ≤ (⟨2, ![a, b]⟩ : Shape).size ax)
    (r : Fin a) (i : Fin b) :
    (Rect.unit (s := ⟨2, ![a, b]⟩) ![0, 0] (⟨2, ![a, b]⟩ : Shape).size inb).idx (ix2 r i) = ix2 r i :=
  funext fun ax => Fin.ext (by
    match ax with
    | ⟨0, _⟩ => show 0 + 1 * r.val = r.val; omega
    | ⟨1, _⟩ => show 0 + 1 * i.val = i.val; omega)

/-- Row o of an [n, b] matrix, as a [1, b] rectangle, puts (u, c) at (o, c). -/
theorem idx_row2 {n b : Nat} (o : Nat) (ho : o < n)
    (inb : ∀ ax, (![o, 0] : Fin 2 → Nat) ax + (⟨2, ![1, b]⟩ : Shape).size ax ≤ (⟨2, ![n, b]⟩ : Shape).size ax)
    (u : Fin 1) (c : Fin b) :
    (Rect.unit (s := ⟨2, ![n, b]⟩) ![o, 0] (⟨2, ![1, b]⟩ : Shape).size inb).idx (ix2 u c) = ix2 (⟨o, ho⟩ : Fin n) c :=
  funext fun ax => Fin.ext (by
    match ax with
    | ⟨0, _⟩ => show o + 1 * u.val = o; have := u.isLt; omega
    | ⟨1, _⟩ => show 0 + 1 * c.val = c.val; omega)

/-- Slab o of an [n, a, b] array, as a [1, a, b] rectangle, puts (u, i, c) at (o, i, c). -/
theorem idx_slab3 {n a b : Nat} (o : Nat) (ho : o < n)
    (inb : ∀ ax, (![o, 0, 0] : Fin 3 → Nat) ax + (⟨3, ![1, a, b]⟩ : Shape).size ax ≤ (⟨3, ![n, a, b]⟩ : Shape).size ax)
    (u : Fin 1) (i : Fin a) (c : Fin b) :
    (Rect.unit (s := ⟨3, ![n, a, b]⟩) ![o, 0, 0] (⟨3, ![1, a, b]⟩ : Shape).size inb).idx (ix3 u i c) = ix3 (⟨o, ho⟩ : Fin n) i c :=
  funext fun ax => Fin.ext (by
    match ax with
    | ⟨0, _⟩ => show o + 1 * u.val = o; have := u.isLt; omega
    | ⟨1, _⟩ => show 0 + 1 * i.val = i.val; omega
    | ⟨2, _⟩ => show 0 + 1 * c.val = c.val; omega)

/-- An index of slab t is in no other slab's rectangle. -/
theorem not_mem_slab (o : Nat)
    (inb : ∀ ax, (![o, 0, 0] : Fin 3 → Nat) ax + S1x512x128.size ax ≤ S4x512x128.size ax)
    (t : Fin 4) (r : Fin 512) (j : Fin 128) (h : t.val ≠ o) :
    ix3 t r j ∉ (Rect.unit (s := S4x512x128) ![o, 0, 0] S1x512x128.size inb).set := by
  rw [Rect.mem_set_unit]
  intro hm
  have h0 : o ≤ t.val ∧ t.val < o + 1 := hm 0
  omega

/-! ## The output block after the body, slab by slab -/

/-- One node type's arithmetic over the loads through slab o's rectangles is that arithmetic at the arrays' slab o. -/
theorem slabFun_ld (X : Vec Ideal S512x512 .f32) (x4 : Vec Ideal S4x512x1024 .bf16) (x5 : Vec Ideal S4x1024 .f32)
    (x6 : Vec Ideal S4x1024x128 .bf16) (x7 : Vec Ideal S4x128 .f32) (o : Nat) (ho : o < 4)
    (inbW1 : ∀ ax, (![o, 0, 0] : Fin 3 → Nat) ax + S1x512x1024.size ax ≤ S4x512x1024.size ax)
    (inbB1 : ∀ ax, (![o, 0] : Fin 2 → Nat) ax + S1x1024.size ax ≤ S4x1024.size ax)
    (inbW2 : ∀ ax, (![o, 0, 0] : Fin 3 → Nat) ax + S1x1024x128.size ax ≤ S4x1024x128.size ax)
    (inbB2 : ∀ ax, (![o, 0] : Fin 2 → Nat) ax + S1x128.size ax ≤ S4x128.size ax)
    (r : Fin 512) (j : Fin 128) :
    slabFun (View.ld X rX) (View.ld x4 (Rect.unit (s := S4x512x1024) ![o, 0, 0] S1x512x1024.size inbW1))
        (View.ld x5 (Rect.unit (s := S4x1024) ![o, 0] S1x1024.size inbB1))
        (View.ld x6 (Rect.unit (s := S4x1024x128) ![o, 0, 0] S1x1024x128.size inbW2))
        (View.ld x7 (Rect.unit (s := S4x128) ![o, 0] S1x128.size inbB2)) r j
      = (∑ k : Fin 1024, max ((∑ i : Fin 512, X (ix2 r i) * x4 (ix3 (⟨o, ho⟩ : Fin 4) i k)) + x5 (ix2 (⟨o, ho⟩ : Fin 4) k)) 0
            * x6 (ix3 (⟨o, ho⟩ : Fin 4) k j)) + x7 (ix2 (⟨o, ho⟩ : Fin 4) j) := by
  unfold slabFun
  simp only [View.ld, idx_whole2, idx_row2 o ho, idx_slab3 o ho]

/-- A store to another slab leaves slab t's index to the earlier stores. -/
theorem canon_skip_slab (o : Nat) (inb : ∀ ax, (![o, 0, 0] : Fin 3 → Nat) ax + S1x512x128.size ax ≤ S4x512x128.size ax)
    (w : Vec Ideal S1x512x128 .f32) (L : List (View.Piece (Elt Ideal) S4x512x128 .f32))
    (t : Fin 4) (r : Fin 512) (j : Fin 128) (h : t.val ≠ o) :
    View.canon ((⟨Rect.unit (s := S4x512x128) ![o, 0, 0] S1x512x128.size inb, w⟩ : View.Piece (Elt Ideal) S4x512x128 .f32) :: L) (ix3 t r j)
      = View.canon L (ix3 t r j) := by
  have hm := not_mem_slab o inb t r j h
  exact View.canon_cons_of_not_mem (Val := Elt Ideal)
    (⟨Rect.unit (s := S4x512x128) ![o, 0, 0] S1x512x128.size inb, w⟩ : View.Piece (Elt Ideal) S4x512x128 .f32) L hm

/-- The store to slab o, last, decides what the block reads at slab o's indices: its payload at (0, r, j). -/
theorem canon_hit_slab (o : Nat) (ho : o < 4) (inb : ∀ ax, (![o, 0, 0] : Fin 3 → Nat) ax + S1x512x128.size ax ≤ S4x512x128.size ax)
    (w : Vec Ideal S1x512x128 .f32) (L : List (View.Piece (Elt Ideal) S4x512x128 .f32)) (r : Fin 512) (j : Fin 128) :
    View.canon ((⟨Rect.unit (s := S4x512x128) ![o, 0, 0] S1x512x128.size inb, w⟩ : View.Piece (Elt Ideal) S4x512x128 .f32) :: L)
        (ix3 (⟨o, ho⟩ : Fin 4) r j)
      = w (ix3 (0 : Fin 1) r j) := by
  rw [← idx_slab3 o ho inb 0 r j]
  exact View.canon_cons_emb (Val := Elt Ideal) (Rect.unit (s := S4x512x128) ![o, 0, 0] S1x512x128.size inb) w L (ix3 (0 : Fin 1) r j)

/-- Slab 3: the last store. -/
theorem out0_8_slab3 (x0 x1 x2 x3 : Vec Ideal S512x512 .f32) (x4 : Vec Ideal S4x512x1024 .bf16) (x5 : Vec Ideal S4x1024 .f32)
    (x6 : Vec Ideal S4x1024x128 .bf16) (x7 : Vec Ideal S4x128 .f32) (h : 3 < 4) (r : Fin 512) (j : Fin 128) :
    out0_8 (F := Ideal) x0 x1 x2 x3 x4 x5 x6 x7 (ix3 (⟨3, h⟩ : Fin 4) r j)
      = (∑ k : Fin 1024, max ((∑ i : Fin 512, x3 (ix2 r i) * x4 (ix3 (⟨3, h⟩ : Fin 4) i k)) + x5 (ix2 (⟨3, h⟩ : Fin 4) k)) 0
          * x6 (ix3 (⟨3, h⟩ : Fin 4) k j)) + x7 (ix2 (⟨3, h⟩ : Fin 4) j) := by
  unfold out0_8
  rw [canon_hit_slab 3 h, k0_pay2_apply]
  exact slabFun_ld x3 x4 x5 x6 x7 3 h _ _ _ _ r j

/-- Slab 2: the third store. -/
theorem out0_8_slab2 (x0 x1 x2 x3 : Vec Ideal S512x512 .f32) (x4 : Vec Ideal S4x512x1024 .bf16) (x5 : Vec Ideal S4x1024 .f32)
    (x6 : Vec Ideal S4x1024x128 .bf16) (x7 : Vec Ideal S4x128 .f32) (h : 2 < 4) (r : Fin 512) (j : Fin 128) :
    out0_8 (F := Ideal) x0 x1 x2 x3 x4 x5 x6 x7 (ix3 (⟨2, h⟩ : Fin 4) r j)
      = (∑ k : Fin 1024, max ((∑ i : Fin 512, x2 (ix2 r i) * x4 (ix3 (⟨2, h⟩ : Fin 4) i k)) + x5 (ix2 (⟨2, h⟩ : Fin 4) k)) 0
          * x6 (ix3 (⟨2, h⟩ : Fin 4) k j)) + x7 (ix2 (⟨2, h⟩ : Fin 4) j) := by
  unfold out0_8
  rw [canon_skip_slab 3 _ _ _ ⟨2, h⟩ r j (by show (2 : Nat) ≠ 3; decide), canon_hit_slab 2 h, k0_pay1_apply]
  exact slabFun_ld x2 x4 x5 x6 x7 2 h _ _ _ _ r j

/-- Slab 1: the second store. -/
theorem out0_8_slab1 (x0 x1 x2 x3 : Vec Ideal S512x512 .f32) (x4 : Vec Ideal S4x512x1024 .bf16) (x5 : Vec Ideal S4x1024 .f32)
    (x6 : Vec Ideal S4x1024x128 .bf16) (x7 : Vec Ideal S4x128 .f32) (h : 1 < 4) (r : Fin 512) (j : Fin 128) :
    out0_8 (F := Ideal) x0 x1 x2 x3 x4 x5 x6 x7 (ix3 (⟨1, h⟩ : Fin 4) r j)
      = (∑ k : Fin 1024, max ((∑ i : Fin 512, x1 (ix2 r i) * x4 (ix3 (⟨1, h⟩ : Fin 4) i k)) + x5 (ix2 (⟨1, h⟩ : Fin 4) k)) 0
          * x6 (ix3 (⟨1, h⟩ : Fin 4) k j)) + x7 (ix2 (⟨1, h⟩ : Fin 4) j) := by
  unfold out0_8
  rw [canon_skip_slab 3 _ _ _ ⟨1, h⟩ r j (by show (1 : Nat) ≠ 3; decide), canon_skip_slab 2 _ _ _ ⟨1, h⟩ r j (by show (1 : Nat) ≠ 2; decide), canon_hit_slab 1 h, k0_pay6_apply]
  exact slabFun_ld x1 x4 x5 x6 x7 1 h _ _ _ _ r j

/-- Slab 0: the first store. -/
theorem out0_8_slab0 (x0 x1 x2 x3 : Vec Ideal S512x512 .f32) (x4 : Vec Ideal S4x512x1024 .bf16) (x5 : Vec Ideal S4x1024 .f32)
    (x6 : Vec Ideal S4x1024x128 .bf16) (x7 : Vec Ideal S4x128 .f32) (h : 0 < 4) (r : Fin 512) (j : Fin 128) :
    out0_8 (F := Ideal) x0 x1 x2 x3 x4 x5 x6 x7 (ix3 (⟨0, h⟩ : Fin 4) r j)
      = (∑ k : Fin 1024, max ((∑ i : Fin 512, x0 (ix2 r i) * x4 (ix3 (⟨0, h⟩ : Fin 4) i k)) + x5 (ix2 (⟨0, h⟩ : Fin 4) k)) 0
          * x6 (ix3 (⟨0, h⟩ : Fin 4) k j)) + x7 (ix2 (⟨0, h⟩ : Fin 4) j) := by
  unfold out0_8
  rw [canon_skip_slab 3 _ _ _ ⟨0, h⟩ r j (by show (0 : Nat) ≠ 3; decide), canon_skip_slab 2 _ _ _ ⟨0, h⟩ r j (by show (0 : Nat) ≠ 2; decide), canon_skip_slab 1 _ _ _ ⟨0, h⟩ r j (by show (0 : Nat) ≠ 1; decide), canon_hit_slab 0 h, k0_pay3_apply]
  exact slabFun_ld x0 x4 x5 x6 x7 0 h _ _ _ _ r j

/-! ## The output block after the body -/

/-- The output block after the body at (t, r, j): node type t's head applied to the hidden row r of node type t. -/
theorem out0_8_apply (x0 x1 x2 x3 : Vec Ideal S512x512 .f32) (x4 : Vec Ideal S4x512x1024 .bf16) (x5 : Vec Ideal S4x1024 .f32)
    (x6 : Vec Ideal S4x1024x128 .bf16) (x7 : Vec Ideal S4x128 .f32) (t : Fin 4) (r : Fin 512) (j : Fin 128) :
    out0_8 (F := Ideal) x0 x1 x2 x3 x4 x5 x6 x7 (ValueIdx.ix3 t r j)
      = (∑ k : Fin 1024, max ((∑ i : Fin 512, (![x0, x1, x2, x3] t) (ValueIdx.ix2 r i) * x4 (ValueIdx.ix3 t i k)) + x5 (ValueIdx.ix2 t k)) 0
          * x6 (ValueIdx.ix3 t k j)) + x7 (ValueIdx.ix2 t j) := by
  match t with
  | ⟨0, h⟩ => exact out0_8_slab0 x0 x1 x2 x3 x4 x5 x6 x7 h r j
  | ⟨1, h⟩ => exact out0_8_slab1 x0 x1 x2 x3 x4 x5 x6 x7 h r j
  | ⟨2, h⟩ => exact out0_8_slab2 x0 x1 x2 x3 x4 x5 x6 x7 h r j
  | ⟨3, h⟩ => exact out0_8_slab3 x0 x1 x2 x3 x4 x5 x6 x7 h r j

end Cert.KernelIdeal.Hand

end
-- ==== Proof.KernelFinal.lean ====
/-
  From the blocks to the array. Grid point t of 32 handles rows 512 t .. 512 t + 511 of every node type: its rows'
  blocks are those rows of x0 .. x3, its weight and bias blocks the whole arrays, and the block it writes back is
  those rows of all four slabs of the result. The body's payload at an entry of that block is the specification G at
  the corresponding entry of the array, so every point writes back block t of G; the 32 blocks tile the array
  (row n is in block n / 512), so after the run the result array is G of the launched arguments.
-/
import proofs.«117456_j13099650253498_1_alg».proof.Proof.FrameRunI
import proofs.«117456_j13099650253498_1_alg».proof.Proof.HostPrefix
import proofs.«117456_j13099650253498_1_alg».proof.Proof.KernelPayload
import proofs.«117456_j13099650253498_1_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

open Idealize.ShloMosaic.StableHlo Cert.TypedHeads

variable (m : (ℓ : Loc nD τ sig) → Buf (Elt Ideal) ℓ) (ρ : Dev nD → PrngReg)

/-- The specification at the arguments as launched on core c. -/
abbrev Gc (c : Dev nD) : FVec Ideal S4x16384x128 .f32 := G (A0 m c) (A1 m c) (A2 m c) (A3 m c) (A5 m c) (A6 m c) (A7 m c) (A8 m c) (A9 m c) (A10 m c) (A11 m c) (A12 m c) (A13 m c) (A14 m c)

/-- The printed index maps, decided once over the grid: the rows' windows and the output move with the point along
    the row axis, the weight and bias windows stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 3) = 0 ∧ win0_6.index t (1 : Fin 3) = 0 ∧ win0_6.index t (2 : Fin 3) = 0
    ∧ win0_7.index t (0 : Fin 2) = 0 ∧ win0_7.index t (1 : Fin 2) = 0
    ∧ win0_8.index t (0 : Fin 3) = 0 ∧ win0_8.index t (1 : Fin 3) = t.val ∧ win0_8.index t (2 : Fin 3) = 0 :=
  (by decide +kernel : ∀ t : Fin grid0.N, _)

/-- Row r of point t's block is row 512 t + r of the array. -/
def rowOf (t : Fin cfg0.N) (r : Fin 512) : Fin 16384 :=
  ⟨t.val * 512 + r.val, by have h : t.val < 32 := lt_of_lt_of_eq t.isLt N_0; have := r.isLt; omega⟩

/-! ## The input blocks, at their literal types -/

abbrev B0 (c : Dev nD) (t : Fin cfg0.N) : Vec Ideal S512x512 .f32 := iblk m c 0 t
abbrev B1 (c : Dev nD) (t : Fin cfg0.N) : Vec Ideal S512x512 .f32 := iblk m c 1 t
abbrev B2 (c : Dev nD) (t : Fin cfg0.N) : Vec Ideal S512x512 .f32 := iblk m c 2 t
abbrev B3 (c : Dev nD) (t : Fin cfg0.N) : Vec Ideal S512x512 .f32 := iblk m c 3 t
abbrev B4 (c : Dev nD) (t : Fin cfg0.N) : Vec Ideal S4x512x1024 .bf16 := iblk m c 4 t
abbrev B5 (c : Dev nD) (t : Fin cfg0.N) : Vec Ideal S4x1024 .f32 := iblk m c 5 t
abbrev B6 (c : Dev nD) (t : Fin cfg0.N) : Vec Ideal S4x1024x128 .bf16 := iblk m c 6 t
abbrev B7 (c : Dev nD) (t : Fin cfg0.N) : Vec Ideal S4x128 .f32 := iblk m c 7 t

/-- Rows' block 0 at point t is rows 512 t .. 512 t + 511 of argument 0. -/
theorem B0_apply (c : Dev nD) (t : Fin cfg0.N) (r i : Fin 512) : B0 m c t (ix2 r i) = A0 m c (ix2 (rowOf t r) i) := by
  show V m c main_arg0 (((cfg0.win 0).blk t).view.emb (ix2 r i)) = _
  rw [V_main_arg0]
  refine congrArg (m ((c : Thread nD τ).loc main_arg0)) ?_
  funext a; apply Fin.ext
  obtain ⟨e0, e1, e2, e3, e4, e5, e6, e7, e8, e9, e10, e11, e12, e13, e14, e15, e16, e17, e18, e19, e20⟩ := idx_facts t
  match a with
  | ⟨0, _⟩ => show win0_0.index t (0 : Fin 2) * 512 + 1 * r.val = t.val * 512 + r.val; omega
  | ⟨1, _⟩ => show win0_0.index t (1 : Fin 2) * 512 + 1 * i.val = i.val; omega

/-- Rows' block 1 at point t is rows 512 t .. 512 t + 511 of argument 1. -/
theorem B1_apply (c : Dev nD) (t : Fin cfg0.N) (r i : Fin 512) : B1 m c t (ix2 r i) = A1 m c (ix2 (rowOf t r) i) := by
  show V m c main_arg1 (((cfg0.win 1).blk t).view.emb (ix2 r i)) = _
  rw [V_main_arg1]
  refine congrArg (m ((c : Thread nD τ).loc main_arg1)) ?_
  funext a; apply Fin.ext
  obtain ⟨e0, e1, e2, e3, e4, e5, e6, e7, e8, e9, e10, e11, e12, e13, e14, e15, e16, e17, e18, e19, e20⟩ := idx_facts t
  match a with
  | ⟨0, _⟩ => show win0_1.index t (0 : Fin 2) * 512 + 1 * r.val = t.val * 512 + r.val; omega
  | ⟨1, _⟩ => show win0_1.index t (1 : Fin 2) * 512 + 1 * i.val = i.val; omega

/-- Rows' block 2 at point t is rows 512 t .. 512 t + 511 of argument 2. -/
theorem B2_apply (c : Dev nD) (t : Fin cfg0.N) (r i : Fin 512) : B2 m c t (ix2 r i) = A2 m c (ix2 (rowOf t r) i) := by
  show V m c main_arg2 (((cfg0.win 2).blk t).view.emb (ix2 r i)) = _
  rw [V_main_arg2]
  refine congrArg (m ((c : Thread nD τ).loc main_arg2)) ?_
  funext a; apply Fin.ext
  obtain ⟨e0, e1, e2, e3, e4, e5, e6, e7, e8, e9, e10, e11, e12, e13, e14, e15, e16, e17, e18, e19, e20⟩ := idx_facts t
  match a with
  | ⟨0, _⟩ => show win0_2.index t (0 : Fin 2) * 512 + 1 * r.val = t.val * 512 + r.val; omega
  | ⟨1, _⟩ => show win0_2.index t (1 : Fin 2) * 512 + 1 * i.val = i.val; omega

/-- Rows' block 3 at point t is rows 512 t .. 512 t + 511 of argument 3. -/
theorem B3_apply (c : Dev nD) (t : Fin cfg0.N) (r i : Fin 512) : B3 m c t (ix2 r i) = A3 m c (ix2 (rowOf t r) i) := by
  show V m c main_arg3 (((cfg0.win 3).blk t).view.emb (ix2 r i)) = _
  rw [V_main_arg3]
  refine congrArg (m ((c : Thread nD τ).loc main_arg3)) ?_
  funext a; apply Fin.ext
  obtain ⟨e0, e1, e2, e3, e4, e5, e6, e7, e8, e9, e10, e11, e12, e13, e14, e15, e16, e17, e18, e19, e20⟩ := idx_facts t
  match a with
  | ⟨0, _⟩ => show win0_3.index t (0 : Fin 2) * 512 + 1 * r.val = t.val * 512 + r.val; omega
  | ⟨1, _⟩ => show win0_3.index t (1 : Fin 2) * 512 + 1 * i.val = i.val; omega

/-- The first-layer weight block is the whole array: argument 5. -/
theorem B4_apply (c : Dev nD) (t : Fin cfg0.N) (s : Fin 4) (i : Fin 512) (k : Fin 1024) : B4 m c t (ix3 s i k) = A5 m c (ix3 s i k) := by
  show (V m c main_v0 : FVec Ideal S4x512x1024 .bf16) (((cfg0.win 4).blk t).view.emb (ix3 s i k)) = _
  have e : ((cfg0.win 4).blk t).view.emb (ix3 s i k) = ix3 s i k := by
    funext a; apply Fin.ext
    obtain ⟨e0, e1, e2, e3, e4, e5, e6, e7, e8, e9, e10, e11, e12, e13, e14, e15, e16, e17, e18, e19, e20⟩ := idx_facts t
    match a with
    | ⟨0, _⟩ => show win0_4.index t (0 : Fin 3) * 4 + 1 * s.val = s.val; omega
    | ⟨1, _⟩ => show win0_4.index t (1 : Fin 3) * 512 + 1 * i.val = i.val; omega
    | ⟨2, _⟩ => show win0_4.index t (2 : Fin 3) * 1024 + 1 * k.val = k.val; omega
  rw [e]; exact V_w1_apply m c _

/-- The first-layer bias block is the whole array: argument 6. -/
theorem B5_apply (c : Dev nD) (t : Fin cfg0.N) (s : Fin 4) (k : Fin 1024) : B5 m c t (ix2 s k) = A6 m c (ix2 s k) := by
  show V m c main_arg6 (((cfg0.win 5).blk t).view.emb (ix2 s k)) = _
  rw [V_main_arg6]
  refine congrArg (m ((c : Thread nD τ).loc main_arg6)) ?_
  funext a; apply Fin.ext
  obtain ⟨e0, e1, e2, e3, e4, e5, e6, e7, e8, e9, e10, e11, e12, e13, e14, e15, e16, e17, e18, e19, e20⟩ := idx_facts t
  match a with
  | ⟨0, _⟩ => show win0_5.index t (0 : Fin 2) * 4 + 1 * s.val = s.val; omega
  | ⟨1, _⟩ => show win0_5.index t (1 : Fin 2) * 1024 + 1 * k.val = k.val; omega

/-- The head-weight block is the whole stacked array: head s's weights continued by zero. -/
theorem B6_apply (c : Dev nD) (t : Fin cfg0.N) (s : Fin 4) (k : Fin 1024) (j : Fin 128) :
    B6 m c t (ix3 s k j) = ![padW (A7 m c), padW (A9 m c), padW (A11 m c), padW (A13 m c)] s k j := by
  show (V m c main_v10 : FVec Ideal S4x1024x128 .bf16) (((cfg0.win 6).blk t).view.emb (ix3 s k j)) = _
  have e : ((cfg0.win 6).blk t).view.emb (ix3 s k j) = ix3 s k j := by
    funext a; apply Fin.ext
    obtain ⟨e0, e1, e2, e3, e4, e5, e6, e7, e8, e9, e10, e11, e12, e13, e14, e15, e16, e17, e18, e19, e20⟩ := idx_facts t
    match a with
    | ⟨0, _⟩ => show win0_6.index t (0 : Fin 3) * 4 + 1 * s.val = s.val; omega
    | ⟨1, _⟩ => show win0_6.index t (1 : Fin 3) * 1024 + 1 * k.val = k.val; omega
    | ⟨2, _⟩ => show win0_6.index t (2 : Fin 3) * 128 + 1 * j.val = j.val; omega
  rw [e]; exact V_w2_apply m c s k j

/-- The head-bias block is the whole stacked array: head s's bias continued by zero. -/
theorem B7_apply (c : Dev nD) (t : Fin cfg0.N) (s : Fin 4) (j : Fin 128) :
    B7 m c t (ix2 s j) = ![padB (A8 m c), padB (A10 m c), padB (A12 m c), padB (A14 m c)] s j := by
  show (V m c main_v19 : FVec Ideal S4x128 .f32) (((cfg0.win 7).blk t).view.emb (ix2 s j)) = _
  have e : ((cfg0.win 7).blk t).view.emb (ix2 s j) = ix2 s j := by
    funext a; apply Fin.ext
    obtain ⟨e0, e1, e2, e3, e4, e5, e6, e7, e8, e9, e10, e11, e12, e13, e14, e15, e16, e17, e18, e19, e20⟩ := idx_facts t
    match a with
    | ⟨0, _⟩ => show win0_7.index t (0 : Fin 2) * 4 + 1 * s.val = s.val; omega
    | ⟨1, _⟩ => show win0_7.index t (1 : Fin 2) * 128 + 1 * j.val = j.val; omega
  rw [e]; exact V_b2_apply m c s j

/-! ## What a point writes back -/

/-- Point t writes back block t of the specification at the launched arguments. -/
theorem flushed_eq (c : Dev nD) (t : Fin cfg0.N) :
    (dats m 0 c).flushed 8 t = ((cfg0.win 8).blk t).view.read (Elt Ideal) (Gc m c) := by
  show (cfg0.win 8).cut (grid0.coords t) ((dats m 0 c).after 8 t) = _
  rw [after0_8]
  funext y
  show out0_8 (B0 m c t) (B1 m c t) (B2 m c t) (B3 m c t) (B4 m c t) (B5 m c t) (B6 m c t) (B7 m c t) y
    = Gc m c (((cfg0.win 8).blk t).view.emb y)
  obtain ⟨s, r, j, rfl⟩ : ∃ (s : Fin 4) (r : Fin 512) (j : Fin 128), y = ix3 s r j := ⟨y 0, y 1, y 2, eq_ix3 y⟩
  have e : ((cfg0.win 8).blk t).view.emb (ix3 s r j) = ix3 s (rowOf t r) j := by
    funext a; apply Fin.ext
    obtain ⟨e0, e1, e2, e3, e4, e5, e6, e7, e8, e9, e10, e11, e12, e13, e14, e15, e16, e17, e18, e19, e20⟩ := idx_facts t
    match a with
    | ⟨0, _⟩ => show win0_8.index t (0 : Fin 3) * 4 + 1 * s.val = s.val; omega
    | ⟨1, _⟩ => show win0_8.index t (1 : Fin 3) * 512 + 1 * r.val = t.val * 512 + r.val; omega
    | ⟨2, _⟩ => show win0_8.index t (2 : Fin 3) * 128 + 1 * j.val = j.val; omega
  rw [e, out0_8_apply]
  show _ = Cert.TypedHeads.head (Cert.TypedHeads.hidden ![A0 m c, A1 m c, A2 m c, A3 m c] (A5 m c) (A6 m c) s (rowOf t r))
    (![padW (A7 m c), padW (A9 m c), padW (A11 m c), padW (A13 m c)] s) (![padB (A8 m c), padB (A10 m c), padB (A12 m c), padB (A14 m c)] s) j
  unfold Cert.TypedHeads.head Cert.TypedHeads.hidden
  rw [B7_apply]
  refine congrArg (· + _) (Finset.sum_congr rfl fun k _ => ?_)
  rw [B6_apply, B5_apply]
  refine congrArg (fun z => max (z + _) 0 * _) (Finset.sum_congr rfl fun i _ => ?_)
  rw [B4_apply]
  refine congrArg (· * _) ?_
  match s with
  | ⟨0, _⟩ => exact B0_apply m c t r i
  | ⟨1, _⟩ => exact B1_apply m c t r i
  | ⟨2, _⟩ => exact B2_apply m c t r i
  | ⟨3, _⟩ => exact B3_apply m c t r i

/-! ## The cover and the array -/

/-- An index of the result array is in point t's block iff each coordinate is in the block's range on its axis. -/
theorem mem_blk8 (t : Fin cfg0.N) (i : S4x16384x128.Idx) :
    i ∈ ((cfg0.win 8).blk t).view.set ↔ ∀ a : Fin 3, win0_8.index t a * S4x512x128.size a ≤ (i a).val ∧ (i a).val < win0_8.index t a * S4x512x128.size a + S4x512x128.size a := by
  show i ∈ ((View.whole main_v20).slice (win0_8.rect t)).set ↔ _
  rw [View.set_slice_whole, Rect.mem_set_unit]
  exact Iff.rfl

/-- Every index of the result array is in the block of the point its row names. -/
theorem cover8 (i : S4x16384x128.Idx) :
    ∃ t : Fin cfg0.N, (cfg0.win 8).flush t = true ∧ i ∈ ((cfg0.win 8).blk t).view.set := by
  have hi0 : (i 0).val < 4 := (i 0).isLt
  have hi1 : (i 1).val < 16384 := (i 1).isLt
  have hi2 : (i 2).val < 128 := (i 2).isLt
  let t : Fin cfg0.N := ⟨(i 1).val / 512, lt_of_lt_of_eq (by omega : (i 1).val / 512 < 32) N_0.symm⟩
  refine ⟨t, flush0_8 t, ?_⟩
  rw [mem_blk8]
  obtain ⟨e0, e1, e2, e3, e4, e5, e6, e7, e8, e9, e10, e11, e12, e13, e14, e15, e16, e17, e18, e19, e20⟩ := idx_facts t
  have ht : t.val = (i 1).val / 512 := rfl
  intro a
  match a with
  | ⟨0, _⟩ => show win0_8.index t (0 : Fin 3) * 4 ≤ (i 0).val ∧ (i 0).val < win0_8.index t (0 : Fin 3) * 4 + 4; omega
  | ⟨1, _⟩ => show win0_8.index t (1 : Fin 3) * 512 ≤ (i 1).val ∧ (i 1).val < win0_8.index t (1 : Fin 3) * 512 + 512; omega
  | ⟨2, _⟩ => show win0_8.index t (2 : Fin 3) * 128 ≤ (i 2).val ∧ (i 2).val < win0_8.index t (2 : Fin 3) * 128 + 128; omega

/-- After the run the result array is the specification at the launched arguments. -/
theorem final8 (c : Dev nD) : (dats m 0 c).arrAt 8 cfg0.N = Gc m c :=
  (dats m 0 c).arrAt_eq_of_cover 8 (Gc m c) (fun t _ => flushed_eq m c t) (cover8)

/-- The run with the result named: it ends at the specification of the launched arguments, the arguments unchanged. -/
theorem run_value : θ_run defs (onTc (τ := τ) (main (F := Ideal))) ⟨m, fun _ => 0, ρ⟩ (fun r => ∀ c : Dev nD,
      r.2.mem ((c.tc : Thread nD τ).loc main_v20) = Gc m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c).1.trans (final8 m c), (h c).2⟩) (run_named m ρ)

end Cert.KernelIdeal.Hand

end
-- ==== Proof.RefValue.lean ====
/-
  The reference program read index by index at the extended reals: its result is the function G of the specification.

  The program stacks the four row arrays along a new leading axis, applies the batched first layer (a contraction over
  the 512 input features, plus the bias, maximum with 0), and then for each node type t cuts slab t, contracts it over the
  1024 hidden features with that type's own head of width c_t, adds the head's bias, pads the result with zeros up to width
  128 and stacks the four padded results. In a column j < c_t the padded result is the head's own value; in a column
  j ≥ c_t it is the padding value 0, and the zero-continued head of the specification is 0 there as well.
-/
import proofs.«117456_j13099650253498_1_alg».proof.Proof.Gen.ReferenceIdeal.Read
import proofs.«117456_j13099650253498_1_alg».proof.Proof.Spec
import Idealize.ShloMosaic.Lib.Pipeline.Value
import Idealize.ShloMosaic.Lib.ValueIdx
import Idealize.ShloMosaic.Lib.KernelVsHost
import Idealize.ShloMosaic.PureOps.Ideal.Laws

noncomputable section

namespace Cert.ReferenceIdeal.RefValue

open Cert.ReferenceIdeal Cert.ReferenceIdeal.Gen Cert.ReferenceIdeal.Read Cert.TypedHeads
open Idealize.ShloMosaic Idealize.ShloMosaic.TcCoe Idealize.SL.Sem Idealize.ShloMosaic.StableHlo Idealize.ShloMosaic.ValueIdx

/-- The stacked rows: slab t of the stack is the row array of node type t. -/
theorem stack_apply (x0 x1 x2 x3 : (⟨S16384x512, .f32⟩ : BufTy).Contents (Elt Ideal)) (t : Fin 4) (n : Fin 16384) (i : Fin 512) :
    val_main_v4 (F := Ideal) x0 x1 x2 x3 (ix3 t n i)
      = (![x0, x1, x2, x3] : Fin 4 → (⟨2, ![16384, 512]⟩ : Shape).Idx → EReal) t (ix2 n i) := by
  unfold val_main_v4
  match t with
  | ⟨0, _⟩ =>
    refine (concatenate_apply_piece (0 : Fin S4x16384x512.rank) _ _ (ix3 (⟨0, by decide⟩ : Fin 4) n i) 0 (by show (0 : Nat) < 4; decide)
      S1x16384x512 (val_main_v0 (F := Ideal) x0) rfl rfl 0 rfl (ix3 (0 : Fin 1) n i)
      (fun b hb => by match b with
        | ⟨0, _⟩ => exact absurd rfl hb
        | ⟨1, _⟩ => rfl
        | ⟨2, _⟩ => rfl) rfl).trans ?_
    rw [val_main_v0_apply]
    exact congrArg x0 (funext fun a => Fin.ext (by match a with | ⟨0, _⟩ => rfl | ⟨1, _⟩ => rfl))
  | ⟨1, _⟩ =>
    refine (concatenate_apply_piece (0 : Fin S4x16384x512.rank) _ _ (ix3 (⟨1, by decide⟩ : Fin 4) n i) 1 (by show (1 : Nat) < 4; decide)
      S1x16384x512 (val_main_v1 (F := Ideal) x1) rfl rfl 1 rfl (ix3 (0 : Fin 1) n i)
      (fun b hb => by match b with
        | ⟨0, _⟩ => exact absurd rfl hb
        | ⟨1, _⟩ => rfl
        | ⟨2, _⟩ => rfl) rfl).trans ?_
    rw [val_main_v1_apply]
    exact congrArg x1 (funext fun a => Fin.ext (by match a with | ⟨0, _⟩ => rfl | ⟨1, _⟩ => rfl))
  | ⟨2, _⟩ =>
    refine (concatenate_apply_piece (0 : Fin S4x16384x512.rank) _ _ (ix3 (⟨2, by decide⟩ : Fin 4) n i) 2 (by show (2 : Nat) < 4; decide)
      S1x16384x512 (val_main_v2 (F := Ideal) x2) rfl rfl 2 rfl (ix3 (0 : Fin 1) n i)
      (fun b hb => by match b with
        | ⟨0, _⟩ => exact absurd rfl hb
        | ⟨1, _⟩ => rfl
        | ⟨2, _⟩ => rfl) rfl).trans ?_
    rw [val_main_v2_apply]
    exact congrArg x2 (funext fun a => Fin.ext (by match a with | ⟨0, _⟩ => rfl | ⟨1, _⟩ => rfl))
  | ⟨3, _⟩ =>
    refine (concatenate_apply_piece (0 : Fin S4x16384x512.rank) _ _ (ix3 (⟨3, by decide⟩ : Fin 4) n i) 3 (by show (3 : Nat) < 4; decide)
      S1x16384x512 (val_main_v3 (F := Ideal) x3) rfl rfl 3 rfl (ix3 (0 : Fin 1) n i)
      (fun b hb => by match b with
        | ⟨0, _⟩ => exact absurd rfl hb
        | ⟨1, _⟩ => rfl
        | ⟨2, _⟩ => rfl) rfl).trans ?_
    rw [val_main_v3_apply]
    exact congrArg x3 (funext fun a => Fin.ext (by match a with | ⟨0, _⟩ => rfl | ⟨1, _⟩ => rfl))

/-- The hidden activations: the batched first layer, its bias and the maximum with 0, read at slab t, row n, feature k. -/
theorem hidden_apply (x0 x1 x2 x3 : (⟨S16384x512, .f32⟩ : BufTy).Contents (Elt Ideal)) (x5 : (⟨S4x512x1024, .f32⟩ : BufTy).Contents (Elt Ideal)) (x6 : (⟨S4x1024, .f32⟩ : BufTy).Contents (Elt Ideal)) (t : Fin 4) (n : Fin 16384) (k : Fin 1024) :
    val_main_v9 (F := Ideal) x0 x1 x2 x3 x5 x6 (ix3 t n k) = Cert.TypedHeads.hidden ![x0, x1, x2, x3] x5 x6 t n k := by
  rw [val_main_v9_apply, val_main_v8_apply, val_main_call0_v0_apply, val_main_call0_cst_apply, val_main_v5_apply,
    val_main_v7_apply, val_main_v6_apply]
  unfold Cert.TypedHeads.hidden
  show max ((∑ i : Fin 512, _ * _) + _) (Ideal.ofBits .f32 0x00000000#32) = _
  rw [Ideal.ofBits_zero_f32]
  refine congrArg (fun z => max z 0) ?_
  refine congrArg₂ (· + ·) (Finset.sum_congr rfl fun i _ => ?_) ?_
  · have el : lidx_main_v5 (ix3 t n k) i = ix3 t n i := funext fun a => Fin.ext (by
      match a with | ⟨0, _⟩ => rfl | ⟨1, _⟩ => rfl | ⟨2, _⟩ => rfl)
    have er : ridx_main_v5 (ix3 t n k) i = ix3 t i k := funext fun a => Fin.ext (by
      match a with | ⟨0, _⟩ => rfl | ⟨1, _⟩ => rfl | ⟨2, _⟩ => rfl)
    rw [el, er, stack_apply]
  · exact congrArg x6 (funext fun a => Fin.ext (by match a with | ⟨0, _⟩ => rfl | ⟨1, _⟩ => rfl))

/-- The first head before padding: slab 0 of the hidden activations contracted with the head's weights, plus its bias. -/
theorem narrow0_apply (x0 x1 x2 x3 : (⟨S16384x512, .f32⟩ : BufTy).Contents (Elt Ideal)) (x5 : (⟨S4x512x1024, .f32⟩ : BufTy).Contents (Elt Ideal)) (x6 : (⟨S4x1024, .f32⟩ : BufTy).Contents (Elt Ideal)) (x7 : (⟨S1024x128, .f32⟩ : BufTy).Contents (Elt Ideal)) (x8 : (⟨S128, .f32⟩ : BufTy).Contents (Elt Ideal)) (n : Fin 16384) (j : Fin 128) :
    val_main_v15 (F := Ideal) x0 x1 x2 x3 x5 x6 x7 x8 (ix2 n j)
      = (∑ k : Fin 1024, Cert.TypedHeads.hidden ![x0, x1, x2, x3] x5 x6 (⟨0, by decide⟩ : Fin 4) n k * x7 (ix2 k j)) + x8 (ix1 j) := by
  rw [val_main_v15_apply, val_main_v12_apply, val_main_v14_apply, val_main_v13_apply]
  show (∑ k : Fin 1024, _ * _) + _ = _
  refine congrArg₂ (· + ·) (Finset.sum_congr rfl fun k _ => ?_) ?_
  · rw [val_main_v11_apply, val_main_v10_apply]
    have hn := n.isLt
    have hk := k.isLt
    have e : idx_main_v10 (idx_main_v11 (lidx_main_v12 (ix2 n j) k)) = ix3 (⟨0, by decide⟩ : Fin 4) n k :=
      funext fun a => Fin.ext (by
        match a with
        | ⟨0, _⟩ => rfl
        | ⟨1, _⟩ => show (n.val * 1024 + k.val) / 1024 % 16384 = n.val; omega
        | ⟨2, _⟩ => show (n.val * 1024 + k.val) % 1024 = k.val; omega)
    have er : ridx_main_v12 (ix2 n j) k = ix2 k j := funext fun a => Fin.ext (by
      match a with | ⟨0, _⟩ => rfl | ⟨1, _⟩ => rfl)
    rw [e, er, hidden_apply]
  · exact congrArg x8 (funext fun a => Fin.ext (by match a with | ⟨0, _⟩ => rfl))

/-- The first head padded to width 128 is the zero-continued head of the specification. -/
theorem slab0_apply (x0 x1 x2 x3 : (⟨S16384x512, .f32⟩ : BufTy).Contents (Elt Ideal)) (x5 : (⟨S4x512x1024, .f32⟩ : BufTy).Contents (Elt Ideal)) (x6 : (⟨S4x1024, .f32⟩ : BufTy).Contents (Elt Ideal)) (x7 : (⟨S1024x128, .f32⟩ : BufTy).Contents (Elt Ideal)) (x8 : (⟨S128, .f32⟩ : BufTy).Contents (Elt Ideal)) (n : Fin 16384) (j : Fin 128) :
    val_main_v16 (F := Ideal) x0 x1 x2 x3 x5 x6 x7 x8 (ix2 n j)
      = head (Cert.TypedHeads.hidden ![x0, x1, x2, x3] x5 x6 (⟨0, by decide⟩ : Fin 4) n) (padW x7) (padB x8) j := by
  unfold val_main_v16
  have hj : j.val < 128 := j.isLt
  rw [head_padW_of_lt _ _ _ _ hj]
  refine (pad_apply_of_inside (s := S16384x128) (t := S16384x128) ![0, 0] ![0, 0] ![0, 0] _ _ pads_S16384x128_S16384x128_000_000 h_S_
    (ix2 n j) (ix2 n (⟨j.val, hj⟩ : Fin 128))
    (fun a => by
      match a with
      | ⟨0, _⟩ => show n.val = 0 + n.val * (0 + 1); omega
      | ⟨1, _⟩ => show j.val = 0 + j.val * (0 + 1); omega)).trans ?_
  exact narrow0_apply x0 x1 x2 x3 x5 x6 x7 x8 n ⟨j.val, hj⟩

/-- The second head before padding: slab 1 of the hidden activations contracted with the head's weights, plus its bias. -/
theorem narrow1_apply (x0 x1 x2 x3 : (⟨S16384x512, .f32⟩ : BufTy).Contents (Elt Ideal)) (x5 : (⟨S4x512x1024, .f32⟩ : BufTy).Contents (Elt Ideal)) (x6 : (⟨S4x1024, .f32⟩ : BufTy).Contents (Elt Ideal)) (x9 : (⟨S1024x96, .f32⟩ : BufTy).Contents (Elt Ideal)) (x10 : (⟨S96, .f32⟩ : BufTy).Contents (Elt Ideal)) (n : Fin 16384) (j : Fin 96) :
    val_main_v22 (F := Ideal) x0 x1 x2 x3 x5 x6 x9 x10 (ix2 n j)
      = (∑ k : Fin 1024, Cert.TypedHeads.hidden ![x0, x1, x2, x3] x5 x6 (⟨1, by decide⟩ : Fin 4) n k * x9 (ix2 k j)) + x10 (ix1 j) := by
  rw [val_main_v22_apply, val_main_v19_apply, val_main_v21_apply, val_main_v20_apply]
  show (∑ k : Fin 1024, _ * _) + _ = _
  refine congrArg₂ (· + ·) (Finset.sum_congr rfl fun k _ => ?_) ?_
  · rw [val_main_v18_apply, val_main_v17_apply]
    have hn := n.isLt
    have hk := k.isLt
    have e : idx_main_v17 (idx_main_v18 (lidx_main_v19 (ix2 n j) k)) = ix3 (⟨1, by decide⟩ : Fin 4) n k :=
      funext fun a => Fin.ext (by
        match a with
        | ⟨0, _⟩ => rfl
        | ⟨1, _⟩ => show (n.val * 1024 + k.val) / 1024 % 16384 = n.val; omega
        | ⟨2, _⟩ => show (n.val * 1024 + k.val) % 1024 = k.val; omega)
    have er : ridx_main_v19 (ix2 n j) k = ix2 k j := funext fun a => Fin.ext (by
      match a with | ⟨0, _⟩ => rfl | ⟨1, _⟩ => rfl)
    rw [e, er, hidden_apply]
  · exact congrArg x10 (funext fun a => Fin.ext (by match a with | ⟨0, _⟩ => rfl))

/-- The second head padded to width 128 is the zero-continued head of the specification. -/
theorem slab1_apply (x0 x1 x2 x3 : (⟨S16384x512, .f32⟩ : BufTy).Contents (Elt Ideal)) (x5 : (⟨S4x512x1024, .f32⟩ : BufTy).Contents (Elt Ideal)) (x6 : (⟨S4x1024, .f32⟩ : BufTy).Contents (Elt Ideal)) (x9 : (⟨S1024x96, .f32⟩ : BufTy).Contents (Elt Ideal)) (x10 : (⟨S96, .f32⟩ : BufTy).Contents (Elt Ideal)) (n : Fin 16384) (j : Fin 128) :
    val_main_v23 (F := Ideal) x0 x1 x2 x3 x5 x6 x9 x10 (ix2 n j)
      = head (Cert.TypedHeads.hidden ![x0, x1, x2, x3] x5 x6 (⟨1, by decide⟩ : Fin 4) n) (padW x9) (padB x10) j := by
  unfold val_main_v23
  by_cases hj : j.val < 96
  · rw [head_padW_of_lt _ _ _ _ hj]
    refine (pad_apply_of_inside (s := S16384x96) (t := S16384x128) ![0, 0] ![0, 32] ![0, 0] _ _ pads_S16384x96_S16384x128_000_0320 h_S_
      (ix2 n j) (ix2 n (⟨j.val, hj⟩ : Fin 96))
      (fun a => by
        match a with
        | ⟨0, _⟩ => show n.val = 0 + n.val * (0 + 1); omega
        | ⟨1, _⟩ => show j.val = 0 + j.val * (0 + 1); omega)).trans ?_
    exact narrow1_apply x0 x1 x2 x3 x5 x6 x9 x10 n ⟨j.val, hj⟩
  · rw [head_padW_of_ge _ _ _ _ hj]
    refine (pad_apply_of_not_inside (s := S16384x96) (t := S16384x128) ![0, 0] ![0, 32] ![0, 0] _ _ pads_S16384x96_S16384x128_000_0320 h_S_
      (ix2 n j) 1 (fun hin => hj ?_)).trans ?_
    · have h3 := hin.2.2
      change (j.val - 0) / (0 + 1) < 96 at h3
      omega
    · rw [val_main_call2_v0_apply, val_main_c_0_apply]
      exact sitofp_zero (φ := .f32)

/-- The third head before padding: slab 2 of the hidden activations contracted with the head's weights, plus its bias. -/
theorem narrow2_apply (x0 x1 x2 x3 : (⟨S16384x512, .f32⟩ : BufTy).Contents (Elt Ideal)) (x5 : (⟨S4x512x1024, .f32⟩ : BufTy).Contents (Elt Ideal)) (x6 : (⟨S4x1024, .f32⟩ : BufTy).Contents (Elt Ideal)) (x11 : (⟨S1024x64, .f32⟩ : BufTy).Contents (Elt Ideal)) (x12 : (⟨S64, .f32⟩ : BufTy).Contents (Elt Ideal)) (n : Fin 16384) (j : Fin 64) :
    val_main_v29 (F := Ideal) x0 x1 x2 x3 x5 x6 x11 x12 (ix2 n j)
      = (∑ k : Fin 1024, Cert.TypedHeads.hidden ![x0, x1, x2, x3] x5 x6 (⟨2, by decide⟩ : Fin 4) n k * x11 (ix2 k j)) + x12 (ix1 j) := by
  rw [val_main_v29_apply, val_main_v26_apply, val_main_v28_apply, val_main_v27_apply]
  show (∑ k : Fin 1024, _ * _) + _ = _
  refine congrArg₂ (· + ·) (Finset.sum_congr rfl fun k _ => ?_) ?_
  · rw [val_main_v25_apply, val_main_v24_apply]
    have hn := n.isLt
    have hk := k.isLt
    have e : idx_main_v24 (idx_main_v25 (lidx_main_v26 (ix2 n j) k)) = ix3 (⟨2, by decide⟩ : Fin 4) n k :=
      funext fun a => Fin.ext (by
        match a with
        | ⟨0, _⟩ => rfl
        | ⟨1, _⟩ => show (n.val * 1024 + k.val) / 1024 % 16384 = n.val; omega
        | ⟨2, _⟩ => show (n.val * 1024 + k.val) % 1024 = k.val; omega)
    have er : ridx_main_v26 (ix2 n j) k = ix2 k j := funext fun a => Fin.ext (by
      match a with | ⟨0, _⟩ => rfl | ⟨1, _⟩ => rfl)
    rw [e, er, hidden_apply]
  · exact congrArg x12 (funext fun a => Fin.ext (by match a with | ⟨0, _⟩ => rfl))

/-- The third head padded to width 128 is the zero-continued head of the specification. -/
theorem slab2_apply (x0 x1 x2 x3 : (⟨S16384x512, .f32⟩ : BufTy).Contents (Elt Ideal)) (x5 : (⟨S4x512x1024, .f32⟩ : BufTy).Contents (Elt Ideal)) (x6 : (⟨S4x1024, .f32⟩ : BufTy).Contents (Elt Ideal)) (x11 : (⟨S1024x64, .f32⟩ : BufTy).Contents (Elt Ideal)) (x12 : (⟨S64, .f32⟩ : BufTy).Contents (Elt Ideal)) (n : Fin 16384) (j : Fin 128) :
    val_main_v30 (F := Ideal) x0 x1 x2 x3 x5 x6 x11 x12 (ix2 n j)
      = head (Cert.TypedHeads.hidden ![x0, x1, x2, x3] x5 x6 (⟨2, by decide⟩ : Fin 4) n) (padW x11) (padB x12) j := by
  unfold val_main_v30
  by_cases hj : j.val < 64
  · rw [head_padW_of_lt _ _ _ _ hj]
    refine (pad_apply_of_inside (s := S16384x64) (t := S16384x128) ![0, 0] ![0, 64] ![0, 0] _ _ pads_S16384x64_S16384x128_000_0640 h_S_
      (ix2 n j) (ix2 n (⟨j.val, hj⟩ : Fin 64))
      (fun a => by
        match a with
        | ⟨0, _⟩ => show n.val = 0 + n.val * (0 + 1); omega
        | ⟨1, _⟩ => show j.val = 0 + j.val * (0 + 1); omega)).trans ?_
    exact narrow2_apply x0 x1 x2 x3 x5 x6 x11 x12 n ⟨j.val, hj⟩
  · rw [head_padW_of_ge _ _ _ _ hj]
    refine (pad_apply_of_not_inside (s := S16384x64) (t := S16384x128) ![0, 0] ![0, 64] ![0, 0] _ _ pads_S16384x64_S16384x128_000_0640 h_S_
      (ix2 n j) 1 (fun hin => hj ?_)).trans ?_
    · have h3 := hin.2.2
      change (j.val - 0) / (0 + 1) < 64 at h3
      omega
    · rw [val_main_call3_v0_apply, val_main_c_1_apply]
      exact sitofp_zero (φ := .f32)

/-- The fourth head before padding: slab 3 of the hidden activations contracted with the head's weights, plus its bias. -/
theorem narrow3_apply (x0 x1 x2 x3 : (⟨S16384x512, .f32⟩ : BufTy).Contents (Elt Ideal)) (x5 : (⟨S4x512x1024, .f32⟩ : BufTy).Contents (Elt Ideal)) (x6 : (⟨S4x1024, .f32⟩ : BufTy).Contents (Elt Ideal)) (x13 : (⟨S1024x32, .f32⟩ : BufTy).Contents (Elt Ideal)) (x14 : (⟨S32, .f32⟩ : BufTy).Contents (Elt Ideal)) (n : Fin 16384) (j : Fin 32) :
    val_main_v36 (F := Ideal) x0 x1 x2 x3 x5 x6 x13 x14 (ix2 n j)
      = (∑ k : Fin 1024, Cert.TypedHeads.hidden ![x0, x1, x2, x3] x5 x6 (⟨3, by decide⟩ : Fin 4) n k * x13 (ix2 k j)) + x14 (ix1 j) := by
  rw [val_main_v36_apply, val_main_v33_apply, val_main_v35_apply, val_main_v34_apply]
  show (∑ k : Fin 1024, _ * _) + _ = _
  refine congrArg₂ (· + ·) (Finset.sum_congr rfl fun k _ => ?_) ?_
  · rw [val_main_v32_apply, val_main_v31_apply]
    have hn := n.isLt
    have hk := k.isLt
    have e : idx_main_v31 (idx_main_v32 (lidx_main_v33 (ix2 n j) k)) = ix3 (⟨3, by decide⟩ : Fin 4) n k :=
      funext fun a => Fin.ext (by
        match a with
        | ⟨0, _⟩ => rfl
        | ⟨1, _⟩ => show (n.val * 1024 + k.val) / 1024 % 16384 = n.val; omega
        | ⟨2, _⟩ => show (n.val * 1024 + k.val) % 1024 = k.val; omega)
    have er : ridx_main_v33 (ix2 n j) k = ix2 k j := funext fun a => Fin.ext (by
      match a with | ⟨0, _⟩ => rfl | ⟨1, _⟩ => rfl)
    rw [e, er, hidden_apply]
  · exact congrArg x14 (funext fun a => Fin.ext (by match a with | ⟨0, _⟩ => rfl))

/-- The fourth head padded to width 128 is the zero-continued head of the specification. -/
theorem slab3_apply (x0 x1 x2 x3 : (⟨S16384x512, .f32⟩ : BufTy).Contents (Elt Ideal)) (x5 : (⟨S4x512x1024, .f32⟩ : BufTy).Contents (Elt Ideal)) (x6 : (⟨S4x1024, .f32⟩ : BufTy).Contents (Elt Ideal)) (x13 : (⟨S1024x32, .f32⟩ : BufTy).Contents (Elt Ideal)) (x14 : (⟨S32, .f32⟩ : BufTy).Contents (Elt Ideal)) (n : Fin 16384) (j : Fin 128) :
    val_main_v37 (F := Ideal) x0 x1 x2 x3 x5 x6 x13 x14 (ix2 n j)
      = head (Cert.TypedHeads.hidden ![x0, x1, x2, x3] x5 x6 (⟨3, by decide⟩ : Fin 4) n) (padW x13) (padB x14) j := by
  unfold val_main_v37
  by_cases hj : j.val < 32
  · rw [head_padW_of_lt _ _ _ _ hj]
    refine (pad_apply_of_inside (s := S16384x32) (t := S16384x128) ![0, 0] ![0, 96] ![0, 0] _ _ pads_S16384x32_S16384x128_000_0960 h_S_
      (ix2 n j) (ix2 n (⟨j.val, hj⟩ : Fin 32))
      (fun a => by
        match a with
        | ⟨0, _⟩ => show n.val = 0 + n.val * (0 + 1); omega
        | ⟨1, _⟩ => show j.val = 0 + j.val * (0 + 1); omega)).trans ?_
    exact narrow3_apply x0 x1 x2 x3 x5 x6 x13 x14 n ⟨j.val, hj⟩
  · rw [head_padW_of_ge _ _ _ _ hj]
    refine (pad_apply_of_not_inside (s := S16384x32) (t := S16384x128) ![0, 0] ![0, 96] ![0, 0] _ _ pads_S16384x32_S16384x128_000_0960 h_S_
      (ix2 n j) 1 (fun hin => hj ?_)).trans ?_
    · have h3 := hin.2.2
      change (j.val - 0) / (0 + 1) < 32 at h3
      omega
    · rw [val_main_call4_v0_apply, val_main_c_2_apply]
      exact sitofp_zero (φ := .f32)

/-- The reference's result is the function of the specification, index by index: slab t of the outer stack is the padded
    head t, which is the zero-continued head applied to the hidden rows of node type t. -/
theorem val_out_eq_G (x0 x1 x2 x3 : (⟨S16384x512, .f32⟩ : BufTy).Contents (Elt Ideal)) (x5 : (⟨S4x512x1024, .f32⟩ : BufTy).Contents (Elt Ideal)) (x6 : (⟨S4x1024, .f32⟩ : BufTy).Contents (Elt Ideal))
    (x7 : (⟨S1024x128, .f32⟩ : BufTy).Contents (Elt Ideal)) (x8 : (⟨S128, .f32⟩ : BufTy).Contents (Elt Ideal))
    (x9 : (⟨S1024x96, .f32⟩ : BufTy).Contents (Elt Ideal)) (x10 : (⟨S96, .f32⟩ : BufTy).Contents (Elt Ideal))
    (x11 : (⟨S1024x64, .f32⟩ : BufTy).Contents (Elt Ideal)) (x12 : (⟨S64, .f32⟩ : BufTy).Contents (Elt Ideal))
    (x13 : (⟨S1024x32, .f32⟩ : BufTy).Contents (Elt Ideal)) (x14 : (⟨S32, .f32⟩ : BufTy).Contents (Elt Ideal)) :
    val_main_v42 (F := Ideal) x0 x1 x2 x3 x5 x6 x7 x8 x9 x10 x11 x12 x13 x14
      = G x0 x1 x2 x3 x5 x6 x7 x8 x9 x10 x11 x12 x13 x14 := by
  funext i
  obtain ⟨t, n, j, rfl⟩ : ∃ (t : Fin 4) (n : Fin 16384) (j : Fin 128), i = ix3 t n j := ⟨i 0, i 1, i 2, eq_ix3 i⟩
  rw [G_ix3]
  unfold val_main_v42
  match t with
  | ⟨0, _⟩ =>
    refine (concatenate_apply_piece (0 : Fin S4x16384x128.rank) _ _ (ix3 (⟨0, by decide⟩ : Fin 4) n j) 0
      (by show (0 : Nat) < 4; decide) S1x16384x128 (val_main_v38 (F := Ideal) x0 x1 x2 x3 x5 x6 x7 x8) rfl rfl 0 rfl
      (ix3 (0 : Fin 1) n j)
      (fun b hb => by
        match b with
        | ⟨0, _⟩ => exact absurd rfl hb
        | ⟨1, _⟩ => rfl
        | ⟨2, _⟩ => rfl) rfl).trans ?_
    rw [val_main_v38_apply]
    have e : idx_main_v38 (ix3 (0 : Fin 1) n j) = ix2 n j := funext fun a => Fin.ext (by
      match a with | ⟨0, _⟩ => rfl | ⟨1, _⟩ => rfl)
    rw [e]
    exact slab0_apply x0 x1 x2 x3 x5 x6 x7 x8 n j
  | ⟨1, _⟩ =>
    refine (concatenate_apply_piece (0 : Fin S4x16384x128.rank) _ _ (ix3 (⟨1, by decide⟩ : Fin 4) n j) 1
      (by show (1 : Nat) < 4; decide) S1x16384x128 (val_main_v39 (F := Ideal) x0 x1 x2 x3 x5 x6 x9 x10) rfl rfl 1 rfl
      (ix3 (0 : Fin 1) n j)
      (fun b hb => by
        match b with
        | ⟨0, _⟩ => exact absurd rfl hb
        | ⟨1, _⟩ => rfl
        | ⟨2, _⟩ => rfl) rfl).trans ?_
    rw [val_main_v39_apply]
    have e : idx_main_v39 (ix3 (0 : Fin 1) n j) = ix2 n j := funext fun a => Fin.ext (by
      match a with | ⟨0, _⟩ => rfl | ⟨1, _⟩ => rfl)
    rw [e]
    exact slab1_apply x0 x1 x2 x3 x5 x6 x9 x10 n j
  | ⟨2, _⟩ =>
    refine (concatenate_apply_piece (0 : Fin S4x16384x128.rank) _ _ (ix3 (⟨2, by decide⟩ : Fin 4) n j) 2
      (by show (2 : Nat) < 4; decide) S1x16384x128 (val_main_v40 (F := Ideal) x0 x1 x2 x3 x5 x6 x11 x12) rfl rfl 2 rfl
      (ix3 (0 : Fin 1) n j)
      (fun b hb => by
        match b with
        | ⟨0, _⟩ => exact absurd rfl hb
        | ⟨1, _⟩ => rfl
        | ⟨2, _⟩ => rfl) rfl).trans ?_
    rw [val_main_v40_apply]
    have e : idx_main_v40 (ix3 (0 : Fin 1) n j) = ix2 n j := funext fun a => Fin.ext (by
      match a with | ⟨0, _⟩ => rfl | ⟨1, _⟩ => rfl)
    rw [e]
    exact slab2_apply x0 x1 x2 x3 x5 x6 x11 x12 n j
  | ⟨3, _⟩ =>
    refine (concatenate_apply_piece (0 : Fin S4x16384x128.rank) _ _ (ix3 (⟨3, by decide⟩ : Fin 4) n j) 3
      (by show (3 : Nat) < 4; decide) S1x16384x128 (val_main_v41 (F := Ideal) x0 x1 x2 x3 x5 x6 x13 x14) rfl rfl 3 rfl
      (ix3 (0 : Fin 1) n j)
      (fun b hb => by
        match b with
        | ⟨0, _⟩ => exact absurd rfl hb
        | ⟨1, _⟩ => rfl
        | ⟨2, _⟩ => rfl) rfl).trans ?_
    rw [val_main_v41_apply]
    have e : idx_main_v41 (ix3 (0 : Fin 1) n j) = ix2 n j := funext fun a => Fin.ext (by
      match a with | ⟨0, _⟩ => rfl | ⟨1, _⟩ => rfl)
    rw [e]
    exact slab3_apply x0 x1 x2 x3 x5 x6 x13 x14 n j

/-- The run's result term is the function of the specification at the launch's argument arrays. -/
theorem res_out0_eq_G (m : (ℓ : Loc Cert.ReferenceIdeal.nD Cert.ReferenceIdeal.τ Cert.ReferenceIdeal.sig) → Buf (Elt Ideal) ℓ) (c : Dev Cert.ReferenceIdeal.nD) :
    Cert.ReferenceIdeal.Value.res_out0 (F := Ideal) m c
      = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  show Cert.ReferenceIdeal.Value.res_main_v42 m c = _
  rw [val_main_v42_eq]
  exact val_out_eq_G _ _ _ _ _ _ _ _ _ _ _ _ _ _

end Cert.ReferenceIdeal.RefValue

end
-- ==== Proof.lean ====
/-
  Four node types share one result array [4, 16384, 128]: slab t holds, for each of the 16384 rows of node type t, a
  first layer (512 -> 1024, bias, maximum with 0) followed by head t (1024 -> c_t, bias), c_t = 128, 96, 64, 32, in
  columns 0 .. c_t - 1 and zeros after. The kernel pads every head's weights and bias with zeros to width 128 on the
  host and multiplies at full width, 512 rows per grid point; the reference multiplies at the head's own width and
  pads the product with zeros. On the extended reals the two agree entry by entry: changes of float format are the
  identity, a matrix product into a zero accumulator is the plain sum of products, and in a padded column every
  product is h · 0 = 0, the sum of zeros is 0 and 0 + 0 = 0, whatever h is, so finiteness of the inputs is not used.

  Both kernel programs run: the host lines write fresh buffers, the one pipeline's body loads its blocks, stores four
  slabs that cover its output block, and leaves every input block in place, so every argument ends as launched. The
  reference's frame is its run with the result dropped. Nothing was rewritten when the kernel was idealized, so there
  is nothing to preserve.
-/
import proofs.«117456_j13099650253498_1_alg».proof.Defs
import proofs.«117456_j13099650253498_1_alg».proof.Proof.Gen.Kernel
import proofs.«117456_j13099650253498_1_alg».proof.Proof.Gen.KernelIdeal
import proofs.«117456_j13099650253498_1_alg».proof.Proof.Gen.ReferenceIdeal
import proofs.«117456_j13099650253498_1_alg».proof.Proof.Gen.Pre_finite_inputs
import proofs.«117456_j13099650253498_1_alg».proof.Proof.Gen.ReferenceIdeal.Run
import proofs.«117456_j13099650253498_1_alg».proof.Proof.FrameRunB
import proofs.«117456_j13099650253498_1_alg».proof.Proof.FrameRunI
import proofs.«117456_j13099650253498_1_alg».proof.Proof.KernelFinal
import proofs.«117456_j13099650253498_1_alg».proof.Proof.RefValue
import Idealize.ShloMosaic.Adequacy
import Idealize.ShloMosaic.Init

noncomputable section

namespace Cert.Proof

open Idealize.ShloMosaic Idealize.SL.Sem

/-- The kernel as printed runs and leaves its arguments as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the result array at the same function of the
    arguments: the kernel's run ends at the specification of its launched arguments, the reference's at its composed
    term, which is the specification of its own, and the arguments agree. -/
theorem algebraic : Cert.algebraic_KernelIdeal_ReferenceIdeal := by
  intro m ρ m' ρ' _ hagree
  refine ⟨fun c => Cert.KernelIdeal.Hand.Gc m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14⟩ := hagree c
  rw [show Cert.ReferenceIdeal.Value.res_main_v42 m' c = Cert.ReferenceIdeal.Value.res_out0 m' c from rfl,
    Cert.ReferenceIdeal.RefValue.res_out0_eq_G, h0, h1, h2, h3, h5, h6, h7, h8, h9, h10, h11, h12, h13, h14]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
